-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v48)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v48) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x640000 : Shape := ⟨2, ![2, 640000]⟩
abbrev S128x128 : Shape := ⟨2, ![128, 128]⟩
abbrev S128 : Shape := ⟨1, ![128]⟩
abbrev S64x128 : Shape := ⟨2, ![64, 128]⟩
abbrev S64 : Shape := ⟨1, ![64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_

variable [Facts]

def fn_part3 {F : FTy → Type} [FloatOps F] (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  main_v53

def fn_part2 {F : FTy → Type} [FloatOps F] (main_arg8 : FVec F S128x128 .f32) (main_arg9 : FVec F S128 .f32) (main_arg10 : FVec F S64x128 .f32) (main_arg11 : FVec F S64 .f32) (main_v33 : IVec S_ 1) : IVec S_ 1 :=
  let main_v34 : FVec F S128x128 .f32 := Host.absf main_arg8
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S64x128 .f32 := Host.absf main_arg10
  let main_cst_16 : FVec F S_ .f32 := constant S_ .f32 0x7F800000#32
  let main_v45 : FVec F S64x128 .f32 := broadcastInDim S64x128 ![] bcast_S_S64x128 main_cst_16
  let main_v46 : IVec S64x128 1 := cmpf .olt main_v44 main_v45
  let main_c_17 : IVec S_ 1 := constantI S_ 1 1#1
  let main_v47 : IVec S_ 1 := (fun x v => Host.reduce IntOp.andi x v reducesTo_S64x128_S_d0_1 h_S_) main_v46 main_c_17
  let main_v48 : IVec S_ 1 := andi main_v43 main_v47
  let main_v49 : FVec F S64 .f32 := Host.absf main_arg11
  let main_cst_18 : FVec F S_ .f32 := constant S_ .f32 0x7F800000#32
  let main_v50 : FVec F S64 .f32 := broadcastInDim S64 ![] bcast_S_S64 main_cst_18
  fn_part3 (F := F) main_v48 main_v49 main_v50

def fn_part1 {F : FTy → Type} [FloatOps F] (main_arg5 : FVec F S128 .f32) (main_arg6 : FVec F S128x128 .f32) (main_arg7 : FVec F S128 .f32) (main_arg8 : FVec F S128x128 .f32) (main_arg9 : FVec F S128 .f32) (main_arg10 : FVec F S64x128 .f32) (main_arg11 : FVec F S64 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_arg10 main_arg11 main_v33

def fn {F : FTy → Type} [FloatOps F] (main_arg0 : FVec F S50000x128 .f32) (main_arg1 : IVec S2x640000 32) (main_arg2 : FVec F S128x128 .f32) (main_arg3 : FVec F S128 .f32) (main_arg4 : FVec F S128x128 .f32) (main_arg5 : FVec F S128 .f32) (main_arg6 : FVec F S128x128 .f32) (main_arg7 : FVec F S128 .f32) (main_arg8 : FVec F S128x128 .f32) (main_arg9 : FVec F S128 .f32) (main_arg10 : FVec F S64x128 .f32) (main_arg11 : FVec F S64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_arg10 main_arg11 main_v13 main_v16
-- ==== Kernel.lean ====
abbrev S50000x128 : Shape := ⟨2, ![50000, 128]⟩
abbrev S2x640000 : Shape := ⟨2, ![2, 640000]⟩
abbrev S128x128 : Shape := ⟨2, ![128, 128]⟩
abbrev S128 : Shape := ⟨1, ![128]⟩
abbrev S64x128 : Shape := ⟨2, ![64, 128]⟩
abbrev S64 : Shape := ⟨1, ![64]⟩
abbrev S1x640000 : Shape := ⟨2, ![1, 640000]⟩
abbrev S640000 : Shape := ⟨1, ![640000]⟩
abbrev S1x128 : Shape := ⟨2, ![1, 128]⟩
abbrev S10000x128 : Shape := ⟨2, ![10000, 128]⟩
abbrev S_ : Shape := ⟨0, ![]⟩
abbrev S640000x1 : Shape := ⟨2, ![640000, 1]⟩
abbrev S640000x128 : Shape := ⟨2, ![640000, 128]⟩
abbrev S128x64 : Shape := ⟨2, ![128, 64]⟩
abbrev S1x64 : Shape := ⟨2, ![1, 64]⟩
abbrev S50000x64 : Shape := ⟨2, ![50000, 64]⟩
abbrev S10000x64 : Shape := ⟨2, ![10000, 64]⟩

abbrev nBuf : Space → Nat
  | .hbm => 70
  | .vmem => 30
  | .smem => 0
  | _ => 0

abbrev bufTy : (tb : Table) → Fin (tcTables nBuf tb) → BufTy
  | .hbm, ⟨0, _⟩ => ⟨S50000x128, .f32⟩
  | .hbm, ⟨1, _⟩ => ⟨S2x640000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S64x128, .f32⟩
  | .hbm, ⟨11, _⟩ => ⟨S64, .f32⟩
  | .hbm, ⟨12, _⟩ => ⟨S1x640000, .i32⟩
  | .hbm, ⟨13, _⟩ => ⟨S640000, .i32⟩
  | .hbm, ⟨14, _⟩ => ⟨S1x640000, .i32⟩
  | .hbm, ⟨15, _⟩ => ⟨S640000, .i32⟩
  | .hbm, ⟨16, _⟩ => ⟨S128x128, .f32⟩
  | .hbm, ⟨17, _⟩ => ⟨S1x128, .f32⟩
  | .hbm, ⟨18, _⟩ => ⟨S50000x128, .f32⟩
  | .hbm, ⟨19, _⟩ => ⟨S_, .i32⟩
  | .hbm, ⟨20, _⟩ => ⟨S640000, .i32⟩
  | .hbm, ⟨21, _⟩ => ⟨S640000, .i1⟩
  | .hbm, ⟨22, _⟩ => ⟨S_, .i32⟩
  | .hbm, ⟨23, _⟩ => ⟨S640000, .i32⟩
  | .hbm, ⟨24, _⟩ => ⟨S640000, .i32⟩
  | .hbm, ⟨25, _⟩ => ⟨S640000, .i32⟩
  | .hbm, ⟨26, _⟩ => ⟨S640000x1, .i32⟩
  | .hbm, ⟨27, _⟩ => ⟨S640000x128, .f32⟩
  | .hbm, ⟨28, _⟩ => ⟨S_, .f32⟩
  | .hbm, ⟨29, _⟩ => ⟨S50000x128, .f32⟩
  | .hbm, ⟨30, _⟩ => ⟨S640000x1, .i32⟩
  | .hbm, ⟨31, _⟩ => ⟨S50000x128, .f32⟩
  | .hbm, ⟨32, _⟩ => ⟨S128x128, .f32⟩
  | .hbm, ⟨33, _⟩ => ⟨S1x128, .f32⟩
  | .hbm, ⟨34, _⟩ => ⟨S50000x128, .f32⟩
  | .hbm, ⟨35, _⟩ => ⟨S_, .i32⟩
  | .hbm, ⟨36, _⟩ => ⟨S640000, .i32⟩
  | .hbm, ⟨37, _⟩ => ⟨S640000, .i1⟩
  | .hbm, ⟨38, _⟩ => ⟨S_, .i32⟩
  | .hbm, ⟨39, _⟩ => ⟨S640000, .i32⟩
  | .hbm, ⟨40, _⟩ => ⟨S640000, .i32⟩
  | .hbm, ⟨41, _⟩ => ⟨S640000, .i32⟩
  | .hbm, ⟨42, _⟩ => ⟨S640000x1, .i32⟩
  | .hbm, ⟨43, _⟩ => ⟨S640000x128, .f32⟩
  | .hbm, ⟨44, _⟩ => ⟨S_, .f32⟩
  | .hbm, ⟨45, _⟩ => ⟨S50000x128, .f32⟩
  | .hbm, ⟨46, _⟩ => ⟨S640000x1, .i32⟩
  | .hbm, ⟨47, _⟩ => ⟨S50000x128, .f32⟩
  | .hbm, ⟨48, _⟩ => ⟨S128x128, .f32⟩
  | .hbm, ⟨49, _⟩ => ⟨S1x128, .f32⟩
  | .hbm, ⟨50, _⟩ => ⟨S50000x128, .f32⟩
  | .hbm, ⟨51, _⟩ => ⟨S_, .i32⟩
  | .hbm, ⟨52, _⟩ => ⟨S640000, .i32⟩
  | .hbm, ⟨53, _⟩ => ⟨S640000, .i1⟩
  | .hbm, ⟨54, _⟩ => ⟨S_, .i32⟩
  | .hbm, ⟨55, _⟩ => ⟨S640000, .i32⟩
  | .hbm, ⟨56, _⟩ => ⟨S640000, .i32⟩
  | .hbm, ⟨57, _⟩ => ⟨S640000, .i32⟩
  | .hbm, ⟨58, _⟩ => ⟨S640000x1, .i32⟩
  | .hbm, ⟨59, _⟩ => ⟨S640000x128, .f32⟩
  | .hbm, ⟨60, _⟩ => ⟨S_, .f32⟩
  | .hbm, ⟨61, _⟩ => ⟨S50000x128, .f32⟩
  | .hbm, ⟨62, _⟩ => ⟨S640000x1, .i32⟩
  | .hbm, ⟨63, _⟩ => ⟨S50000x128, .f32⟩
  | .hbm, ⟨64, _⟩ => ⟨S128x128, .f32⟩
  | .hbm, ⟨65, _⟩ => ⟨S1x128, .f32⟩
  | .hbm, ⟨66, _⟩ => ⟨S50000x128, .f32⟩
  | .hbm, ⟨67, _⟩ => ⟨S128x64, .f32⟩
  | .hbm, ⟨68, _⟩ => ⟨S1x64, .f32⟩
  | .hbm, ⟨69, _⟩ => ⟨S50000x64, .f32⟩
  | .local _ .vmem, ⟨0, _⟩ => ⟨S10000x128, .f32⟩
  | .local _ .vmem, ⟨1, _⟩ => ⟨S10000x128, .f32⟩
  | .local _ .vmem, ⟨2, _⟩ => ⟨S128x128, .f32⟩
  | .local _ .vmem, ⟨3, _⟩ => ⟨S1x128, .f32⟩
  | .local _ .vmem, ⟨4, _⟩ => ⟨S10000x128, .f32⟩
  | .local _ .vmem, ⟨5, _⟩ => ⟨S10000x128, .f32⟩
  | .local _ .vmem, ⟨6, _⟩ => ⟨S10000x128, .f32⟩
  | .local _ .vmem, ⟨7, _⟩ => ⟨S10000x128, .f32⟩
  | .local _ .vmem, ⟨8, _⟩ => ⟨S128x128, .f32⟩
  | .local _ .vmem, ⟨9, _⟩ => ⟨S1x128, .f32⟩
  | .local _ .vmem, ⟨10, _⟩ => ⟨S10000x128, .f32⟩
  | .local _ .vmem, ⟨11, _⟩ => ⟨S10000x128, .f32⟩
  | .local _ .vmem, ⟨12, _⟩ => ⟨S10000x128, .f32⟩
  | .local _ .vmem, ⟨13, _⟩ => ⟨S10000x128, .f32⟩
  | .local _ .vmem, ⟨14, _⟩ => ⟨S128x128, .f32⟩
  | .local _ .vmem, ⟨15, _⟩ => ⟨S1x128, .f32⟩
  | .local _ .vmem, ⟨16, _⟩ => ⟨S10000x128, .f32⟩
  | .local _ .vmem, ⟨17, _⟩ => ⟨S10000x128, .f32⟩
  | .local _ .vmem, ⟨18, _⟩ => ⟨S10000x128, .f32⟩
  | .local _ .vmem, ⟨19, _⟩ => ⟨S10000x128, .f32⟩
  | .local _ .vmem, ⟨20, _⟩ => ⟨S128x128, .f32⟩
  | .local _ .vmem, ⟨21, _⟩ => ⟨S1x128, .f32⟩
  | .local _ .vmem, ⟨22, _⟩ => ⟨S10000x128, .f32⟩
  | .local _ .vmem, ⟨23, _⟩ => ⟨S10000x128, .f32⟩
  | .local _ .vmem, ⟨24, _⟩ => ⟨S10000x128, .f32⟩
  | .local _ .vmem, ⟨25, _⟩ => ⟨S10000x128, .f32⟩
  | .local _ .vmem, ⟨26, _⟩ => ⟨S128x64, .f32⟩
  | .local _ .vmem, ⟨27, _⟩ => ⟨S1x64, .f32⟩
  | .local _ .vmem, ⟨28, _⟩ => ⟨S10000x64, .f32⟩
  | .local _ .vmem, ⟨29, _⟩ => ⟨S10000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_c : Ref sig .tc := ⟨.hbm, 19, rfl⟩
abbrev main_v7 : Ref sig .tc := ⟨.hbm, 20, rfl⟩
abbrev main_v8 : Ref sig .tc := ⟨.hbm, 21, rfl⟩
abbrev main_c_0 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_c_1 : Ref sig .tc := ⟨.hbm, 35, rfl⟩
abbrev main_v20 : Ref sig .tc := ⟨.hbm, 36, rfl⟩
abbrev main_v21 : Ref sig .tc := ⟨.hbm, 37, rfl⟩
abbrev main_c_2 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_cst_3 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_c_4 : Ref sig .tc := ⟨.hbm, 51, rfl⟩
abbrev main_v33 : Ref sig .tc := ⟨.hbm, 52, rfl⟩
abbrev main_v34 : Ref sig .tc := ⟨.hbm, 53, rfl⟩
abbrev main_c_5 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_cst_6 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg2_0 : Ref sig .tc := ⟨.vmem, 21, rfl⟩
abbrev cc3_stg3_0 : Ref sig .tc := ⟨.vmem, 22, rfl⟩
abbrev cc3_stg3_1 : Ref sig .tc := ⟨.vmem, 23, rfl⟩
abbrev cc4_stg0_0 : Ref sig .tc := ⟨.vmem, 24, rfl⟩
abbrev cc4_stg0_1 : Ref sig .tc := ⟨.vmem, 25, rfl⟩
abbrev cc4_stg1_0 : Ref sig .tc := ⟨.vmem, 26, rfl⟩
abbrev cc4_stg2_0 : Ref sig .tc := ⟨.vmem, 27, rfl⟩
abbrev cc4_stg3_0 : Ref sig .tc := ⟨.vmem, 28, rfl⟩
abbrev cc4_stg3_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17
abbrev cc3_sem0_0 : DmaSem sig := 18
abbrev cc3_sem0_1 : DmaSem sig := 19
abbrev cc3_sem1_0 : DmaSem sig := 20
abbrev cc3_sem2_0 : DmaSem sig := 21
abbrev cc3_sem3_0 : DmaSem sig := 22
abbrev cc3_sem3_1 : DmaSem sig := 23
abbrev cc4_sem0_0 : DmaSem sig := 24
abbrev cc4_sem0_1 : DmaSem sig := 25
abbrev cc4_sem1_0 : DmaSem sig := 26
abbrev cc4_sem2_0 : DmaSem sig := 27
abbrev cc4_sem3_0 : DmaSem sig := 28
abbrev cc4_sem3_1 : DmaSem sig := 29

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S10000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![5], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S10000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![5], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S10000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![5], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S10000x64 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  transposes_S128x128_S128x128_1_0 : S128x128.Transposes [1, 0] S128x128
  shapeCasts_S128_S1x128 : S128.ShapeCasts S1x128
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  bcast_S_S640000 : S_.BroadcastsInDim S640000 (![] : Fin 0 → Fin S640000.rank)
  bcast_S640000_S640000x1_0 : S640000.BroadcastsInDim S640000x1 (![0] : Fin 1 → Fin S640000x1.rank)
  bcast_S_S50000x128 : S_.BroadcastsInDim S50000x128 (![] : Fin 0 → Fin S50000x128.rank)
  shapeCasts_S10000x128_S10000x128 : S10000x128.ShapeCasts S10000x128
  transposes_S64x128_S128x64_1_0 : S64x128.Transposes [1, 0] S128x64
  shapeCasts_S64_S1x64 : S64.ShapeCasts S1x64
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  inb_S10000x64_S10000x64_0_0 : ∀ a, (![0, 0] : Fin 2 → Nat) a + S10000x64.size a ≤ S10000x64.size a
  h_S10000x64 : 0 < S10000x64.numel
  dot_S10000x128_S128x128_S10000x128_1_0_0_1_n_n_wf : DotDims.WF S10000x128 S128x128 S10000x128 [1] [0] [0] [1] [] []
  gather_S50000x128_S640000x1_S640000x128_1_0_n_n_0_1_1128_wf : GatherDims.WF S50000x128 S640000x1 S640000x128 [1] [0] [] [0] [] 1 ![1, 128]
  scatter_S50000x128_S640000x1_S640000x128_1_0_0_1_wf : ScatterDims.WF S50000x128 S640000x1 S640000x128 [1] [0] [0] 1
  dot_S10000x128_S128x64_S10000x64_1_0_0_1_n_n_wf : DotDims.WF S10000x128 S128x64 S10000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S50000x128.size a
  hwx0_0 : ∀ i : grid0.Coords, EltTy.bits .f32 = 32 ∨ (Rect.block (s := S50000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x128.size a ≤ S50000x128.size a
  hwx0_3 : ∀ i : grid0.Coords, EltTy.bits .f32 = 32 ∨ (Rect.block (s := S50000x128) S10000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S50000x128.size a
  hwx1_0 : ∀ i : grid1.Coords, EltTy.bits .f32 = 32 ∨ (Rect.block (s := S50000x128) S10000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x128.size a ≤ S50000x128.size a
  hwx1_3 : ∀ i : grid1.Coords, EltTy.bits .f32 = 32 ∨ (Rect.block (s := S50000x128) S10000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S50000x128.size a
  hwx2_0 : ∀ i : grid2.Coords, EltTy.bits .f32 = 32 ∨ (Rect.block (s := S50000x128) S10000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S10000x128.size a ≤ S50000x128.size a
  hwx2_3 : ∀ i : grid2.Coords, EltTy.bits .f32 = 32 ∨ (Rect.block (s := S50000x128) S10000x128.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x128.size a ≤ S50000x128.size a
  hwx3_0 : ∀ i : grid3.Coords, EltTy.bits .f32 = 32 ∨ (Rect.block (s := S50000x128) S10000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S10000x128.size a ≤ S50000x128.size a
  hwx3_3 : ∀ i : grid3.Coords, EltTy.bits .f32 = 32 ∨ (Rect.block (s := S50000x128) S10000x128.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x128.size a ≤ S50000x128.size a
  hwx4_0 : ∀ i : grid4.Coords, EltTy.bits .f32 = 32 ∨ (Rect.block (s := S50000x128) S10000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x64.size a ≤ S128x64.size a
  hwx4_1 : ∀ i : grid4.Coords, EltTy.bits .f32 = 32 ∨ (Rect.block (s := S128x64) S128x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x64.size a ≤ S1x64.size a
  hwx4_2 : ∀ i : grid4.Coords, EltTy.bits .f32 = 32 ∨ (Rect.block (s := S1x64) S1x64.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S10000x64.size a ≤ S50000x64.size a
  hwx4_3 : ∀ i : grid4.Coords, EltTy.bits .f32 = 32 ∨ (Rect.block (s := S50000x64) S10000x64.size (cc4_transform_3 i) (hinb4_3 i)).WholeWords (EltTy.packing .f32)

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def gather_S50000x128_S640000x1_S640000x128_1_0_n_n_0_1_1128 : GatherDims S50000x128 S640000x1 S640000x128 where
  offsetDims := [1]
  collapsedSliceDims := [0]
  operandBatchingDims := []
  startIndicesBatchingDims := []
  startIndexMap := [0]
  indexVectorDim := 1
  sliceSizes := ![1, 128]
  wf := gather_S50000x128_S640000x1_S640000x128_1_0_n_n_0_1_1128_wf
def scatter_S50000x128_S640000x1_S640000x128_1_0_0_1 : ScatterDims S50000x128 S640000x1 S640000x128 where
  updateWindowDims := [1]
  insertedWindowDims := [0]
  scatterDimsToOperandDims := [0]
  indexVectorDim := 1
  wf := scatter_S50000x128_S640000x1_S640000x128_1_0_0_1_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S10000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v16) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v17) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v18) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v19) S10000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v29) S10000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v30) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v31) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v32) S10000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v42) S10000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v43) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v44) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v45) S10000x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v45) S10000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v46) S128x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v47) S1x64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v48) S10000x64.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

class Facts : Prop extends Facts₀ where

variable [Facts]
-- ==== ReferenceIdeal.lean ====
abbrev S50000x128 : Shape := ⟨2, ![50000, 128]⟩
abbrev S2x640000 : Shape := ⟨2, ![2, 640000]⟩
abbrev S128x128 : Shape := ⟨2, ![128, 128]⟩
abbrev S128 : Shape := ⟨1, ![128]⟩
abbrev S64x128 : Shape := ⟨2, ![64, 128]⟩
abbrev S64 : Shape := ⟨1, ![64]⟩
abbrev S1x640000 : Shape := ⟨2, ![1, 640000]⟩
abbrev S640000 : Shape := ⟨1, ![640000]⟩
abbrev S1x128 : Shape := ⟨2, ![1, 128]⟩
abbrev S_ : Shape := ⟨0, ![]⟩
abbrev S640000x1 : Shape := ⟨2, ![640000, 1]⟩
abbrev S640000x128 : Shape := ⟨2, ![640000, 128]⟩
abbrev S128x64 : Shape := ⟨2, ![128, 64]⟩
abbrev S50000x64 : Shape := ⟨2, ![50000, 64]⟩
abbrev S1x64 : Shape := ⟨2, ![1, 64]⟩

abbrev nBuf : Space → Nat
  | .hbm => 84
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x640000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S64x128, .f32⟩
  | .hbm, ⟨11, _⟩ => ⟨S64, .f32⟩
  | .hbm, ⟨12, _⟩ => ⟨S1x640000, .i32⟩
  | .hbm, ⟨13, _⟩ => ⟨S640000, .i32⟩
  | .hbm, ⟨14, _⟩ => ⟨S1x640000, .i32⟩
  | .hbm, ⟨15, _⟩ => ⟨S640000, .i32⟩
  | .hbm, ⟨16, _⟩ => ⟨S128x128, .f32⟩
  | .hbm, ⟨17, _⟩ => ⟨S50000x128, .f32⟩
  | .hbm, ⟨18, _⟩ => ⟨S1x128, .f32⟩
  | .hbm, ⟨19, _⟩ => ⟨S50000x128, .f32⟩
  | .hbm, ⟨20, _⟩ => ⟨S50000x128, .f32⟩
  | .hbm, ⟨21, _⟩ => ⟨S50000x128, .f32⟩
  | .hbm, ⟨22, _⟩ => ⟨S_, .i32⟩
  | .hbm, ⟨23, _⟩ => ⟨S640000, .i32⟩
  | .hbm, ⟨24, _⟩ => ⟨S640000, .i1⟩
  | .hbm, ⟨25, _⟩ => ⟨S_, .i32⟩
  | .hbm, ⟨26, _⟩ => ⟨S640000, .i32⟩
  | .hbm, ⟨27, _⟩ => ⟨S640000, .i32⟩
  | .hbm, ⟨28, _⟩ => ⟨S640000, .i32⟩
  | .hbm, ⟨29, _⟩ => ⟨S640000x1, .i32⟩
  | .hbm, ⟨30, _⟩ => ⟨S640000x128, .f32⟩
  | .hbm, ⟨31, _⟩ => ⟨S_, .f32⟩
  | .hbm, ⟨32, _⟩ => ⟨S50000x128, .f32⟩
  | .hbm, ⟨33, _⟩ => ⟨S640000x1, .i32⟩
  | .hbm, ⟨34, _⟩ => ⟨S50000x128, .f32⟩
  | .hbm, ⟨35, _⟩ => ⟨S128x128, .f32⟩
  | .hbm, ⟨36, _⟩ => ⟨S50000x128, .f32⟩
  | .hbm, ⟨37, _⟩ => ⟨S1x128, .f32⟩
  | .hbm, ⟨38, _⟩ => ⟨S50000x128, .f32⟩
  | .hbm, ⟨39, _⟩ => ⟨S50000x128, .f32⟩
  | .hbm, ⟨40, _⟩ => ⟨S50000x128, .f32⟩
  | .hbm, ⟨41, _⟩ => ⟨S_, .i32⟩
  | .hbm, ⟨42, _⟩ => ⟨S640000, .i32⟩
  | .hbm, ⟨43, _⟩ => ⟨S640000, .i1⟩
  | .hbm, ⟨44, _⟩ => ⟨S_, .i32⟩
  | .hbm, ⟨45, _⟩ => ⟨S640000, .i32⟩
  | .hbm, ⟨46, _⟩ => ⟨S640000, .i32⟩
  | .hbm, ⟨47, _⟩ => ⟨S640000, .i32⟩
  | .hbm, ⟨48, _⟩ => ⟨S640000x1, .i32⟩
  | .hbm, ⟨49, _⟩ => ⟨S640000x128, .f32⟩
  | .hbm, ⟨50, _⟩ => ⟨S_, .f32⟩
  | .hbm, ⟨51, _⟩ => ⟨S50000x128, .f32⟩
  | .hbm, ⟨52, _⟩ => ⟨S640000x1, .i32⟩
  | .hbm, ⟨53, _⟩ => ⟨S50000x128, .f32⟩
  | .hbm, ⟨54, _⟩ => ⟨S128x128, .f32⟩
  | .hbm, ⟨55, _⟩ => ⟨S50000x128, .f32⟩
  | .hbm, ⟨56, _⟩ => ⟨S1x128, .f32⟩
  | .hbm, ⟨57, _⟩ => ⟨S50000x128, .f32⟩
  | .hbm, ⟨58, _⟩ => ⟨S50000x128, .f32⟩
  | .hbm, ⟨59, _⟩ => ⟨S50000x128, .f32⟩
  | .hbm, ⟨60, _⟩ => ⟨S_, .i32⟩
  | .hbm, ⟨61, _⟩ => ⟨S640000, .i32⟩
  | .hbm, ⟨62, _⟩ => ⟨S640000, .i1⟩
  | .hbm, ⟨63, _⟩ => ⟨S_, .i32⟩
  | .hbm, ⟨64, _⟩ => ⟨S640000, .i32⟩
  | .hbm, ⟨65, _⟩ => ⟨S640000, .i32⟩
  | .hbm, ⟨66, _⟩ => ⟨S640000, .i32⟩
  | .hbm, ⟨67, _⟩ => ⟨S640000x1, .i32⟩
  | .hbm, ⟨68, _⟩ => ⟨S640000x128, .f32⟩
  | .hbm, ⟨69, _⟩ => ⟨S_, .f32⟩
  | .hbm, ⟨70, _⟩ => ⟨S50000x128, .f32⟩
  | .hbm, ⟨71, _⟩ => ⟨S640000x1, .i32⟩
  | .hbm, ⟨72, _⟩ => ⟨S50000x128, .f32⟩
  | .hbm, ⟨73, _⟩ => ⟨S128x128, .f32⟩
  | .hbm, ⟨74, _⟩ => ⟨S50000x128, .f32⟩
  | .hbm, ⟨75, _⟩ => ⟨S1x128, .f32⟩
  | .hbm, ⟨76, _⟩ => ⟨S50000x128, .f32⟩
  | .hbm, ⟨77, _⟩ => ⟨S50000x128, .f32⟩
  | .hbm, ⟨78, _⟩ => ⟨S50000x128, .f32⟩
  | .hbm, ⟨79, _⟩ => ⟨S128x64, .f32⟩
  | .hbm, ⟨80, _⟩ => ⟨S50000x64, .f32⟩
  | .hbm, ⟨81, _⟩ => ⟨S1x64, .f32⟩
  | .hbm, ⟨82, _⟩ => ⟨S50000x64, .f32⟩
  | .hbm, ⟨83, _⟩ => ⟨S50000x64, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_c : Ref sig .tc := ⟨.hbm, 22, rfl⟩
abbrev main_v10 : Ref sig .tc := ⟨.hbm, 23, rfl⟩
abbrev main_v11 : Ref sig .tc := ⟨.hbm, 24, rfl⟩
abbrev main_c_0 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_c_1 : Ref sig .tc := ⟨.hbm, 41, rfl⟩
abbrev main_v26 : Ref sig .tc := ⟨.hbm, 42, rfl⟩
abbrev main_v27 : Ref sig .tc := ⟨.hbm, 43, rfl⟩
abbrev main_c_2 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_cst_3 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_c_4 : Ref sig .tc := ⟨.hbm, 60, rfl⟩
abbrev main_v42 : Ref sig .tc := ⟨.hbm, 61, rfl⟩
abbrev main_v43 : Ref sig .tc := ⟨.hbm, 62, rfl⟩
abbrev main_c_5 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_cst_6 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  transposes_S128x128_S128x128_1_0 : S128x128.Transposes [1, 0] S128x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S640000 : S_.BroadcastsInDim S640000 (![] : Fin 0 → Fin S640000.rank)
  bcast_S640000_S640000x1_0 : S640000.BroadcastsInDim S640000x1 (![0] : Fin 1 → Fin S640000x1.rank)
  bcast_S_S50000x128 : S_.BroadcastsInDim S50000x128 (![] : Fin 0 → Fin S50000x128.rank)
  transposes_S64x128_S128x64_1_0 : S64x128.Transposes [1, 0] S128x64
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  dot_S50000x128_S128x128_S50000x128_1_0_0_1_n_n_wf : DotDims.WF S50000x128 S128x128 S50000x128 [1] [0] [0] [1] [] []
  gather_S50000x128_S640000x1_S640000x128_1_0_n_n_0_1_1128_wf : GatherDims.WF S50000x128 S640000x1 S640000x128 [1] [0] [] [0] [] 1 ![1, 128]
  scatter_S50000x128_S640000x1_S640000x128_1_0_0_1_wf : ScatterDims.WF S50000x128 S640000x1 S640000x128 [1] [0] [0] 1
  dot_S50000x128_S128x64_S50000x64_1_0_0_1_n_n_wf : DotDims.WF S50000x128 S128x64 S50000x64 [1] [0] [0] [1] [] []

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S640000x1_S640000x128_1_0_n_n_0_1_1128 : GatherDims S50000x128 S640000x1 S640000x128 where
  offsetDims := [1]
  collapsedSliceDims := [0]
  operandBatchingDims := []
  startIndicesBatchingDims := []
  startIndexMap := [0]
  indexVectorDim := 1
  sliceSizes := ![1, 128]
  wf := gather_S50000x128_S640000x1_S640000x128_1_0_n_n_0_1_1128_wf
def scatter_S50000x128_S640000x1_S640000x128_1_0_0_1 : ScatterDims S50000x128 S640000x1 S640000x128 where
  updateWindowDims := [1]
  insertedWindowDims := [0]
  scatterDimsToOperandDims := [0]
  indexVectorDim := 1
  wf := scatter_S50000x128_S640000x1_S640000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf

class Facts : Prop extends Facts₀ where

variable [Facts]
-- ==== Proof.LibPlainProduct.lean ====
/-
  A plain matrix product read at one entry, for every size.

  For the dimension numbers of an `M × K` by `K × N` product (contract the left operand's axis 1 with the right
  operand's axis 0, no batch axis: `DotDims.plain M K N`), at the exact instance the entry `(p, j)` of the product
  accumulated into zero is the finite sum `∑ k, a (p, k) · w (k, j)` over the contracted axis, on the extended reals.
  The library states the product as a sum over the contraction's own index type; the one contracted axis identifies
  that type with `Fin K`, and under this identification the left operand is read at `(p, k)` and the right at
  `(k, j)`. Both the kernel's product into a zero accumulator and the host's product are covered. Stated for every
  `M`, `K`, `N`, so a program's printed dimension record with these numbers is an instance by unfolding.
-/
import Idealize.ShloMosaic.PureOps.Ideal.Laws
import Idealize.ShloMosaic.Lib.ValueIdx

noncomputable section

open scoped BigOperators

namespace Cert.LibPlainProduct

open Idealize.ShloMosaic Idealize.ShloMosaic.ValueIdx

variable {M K N : ℕ}

/-- The contraction index of a plain product is its one coordinate, a number below `K`. -/
abbrev contracted (M K N : ℕ) : (DotDims.plain M K N).contr.Idx ≃ Fin K :=
  contrEquiv1 (DotDims.plain M K N) K rfl rfl

/-- At result entry `(p, j)` and contraction position `k` the left operand is read at `(p, k)`. -/
theorem lhsIdx_plain (p : Fin M) (j : Fin N) (k : Fin K) :
    (DotDims.plain M K N).lhsIdx (ix2 p j) ((contracted M K N).symm k) = ix2 p k :=
  funext fun ax => Fin.ext (by
    match ax with
    | ⟨0, _⟩ => rfl
    | ⟨1, _⟩ => exact contrEquiv1_symm_val (DotDims.plain M K N) K rfl rfl k)

/-- And the right operand at `(k, j)`. -/
theorem rhsIdx_plain (p : Fin M) (j : Fin N) (k : Fin K) :
    (DotDims.plain M K N).rhsIdx (ix2 p j) ((contracted M K N).symm k) = ix2 k j :=
  funext fun ax => Fin.ext (by
    match ax with
    | ⟨0, _⟩ => exact contrEquiv1_symm_val (DotDims.plain M K N) K rfl rfl k
    | ⟨1, _⟩ => rfl)

/-- A plain product accumulated into the zero array, at `(p, j)`: the sum over `k` of `a (p, k) · w (k, j)`. -/
theorem matmul_zero_plain_apply {φ₁ φ₂ : FTy} (a : FVec Ideal ⟨2, ![M, K]⟩ φ₁) (w : FVec Ideal ⟨2, ![K, N]⟩ φ₂)
    (prec : Option ContractPrecision) (p : Fin M) (j : Fin N) :
    FloatOps.matmul (DotDims.plain M K N) prec a w (constant ⟨2, ![M, N]⟩ .f32 0x00000000#32) (ix2 p j)
      = ∑ k : Fin K, a (ix2 p k) * w (ix2 k j) := by
  rw [Ideal.matmul_constant_zero_apply, ← Equiv.sum_comp (contracted M K N).symm]
  exact Finset.sum_congr rfl fun k _ => by rw [lhsIdx_plain, rhsIdx_plain]

/-- The host's plain product at `(p, j)`: the same sum, whatever the schedule. -/
theorem dotGeneral_plain_apply {φ₁ φ₂ : FTy} (a : FVec Ideal ⟨2, ![M, K]⟩ φ₁) (w : FVec Ideal ⟨2, ![K, N]⟩ φ₂)
    (prec : Option ContractPrecision) (sched : HostSchedule) (p : Fin M) (j : Fin N) :
    FloatOps.dotGeneral (DotDims.plain M K N) prec sched a w (ix2 p j) = ∑ k : Fin K, a (ix2 p k) * w (ix2 k j) := by
  rw [Ideal.dotGeneral_apply, ← Equiv.sum_comp (contracted M K N).symm]
  exact Finset.sum_congr rfl fun k _ => by rw [lhsIdx_plain, rhsIdx_plain]

end Cert.LibPlainProduct

end
-- ==== Proof.LibBroadcastRead.lean ====
/-
  The host's two-step broadcasts of a vector into a rectangle, read at one entry.

  `jnp` lays a vector along a rectangle in two steps: first it gives the vector a unit axis (a row `[1, m]` or a column
  `[n, 1]`), then it repeats that along the unit axis. Read at entry `(p, q)`, a row repeated down the rows holds the
  row's entry `q`, and a column repeated along the columns holds the column's entry `p`; the unit-axis step changes
  nothing but the index's shape. Stated for every size, so a program's printed broadcast is an instance.
-/
import Idealize.ShloMosaic.Lib.ValueIdx
import Idealize.ShloMosaic.Lib.Pipeline.Value

namespace Cert.LibBroadcastRead

open Idealize.ShloMosaic Idealize.ShloMosaic.ValueIdx Idealize.ShloMosaic.Pipeline

variable {α : Type} {n m : ℕ}

/-- A vector as a one-row matrix: entry `(0, q)` is the vector's entry `q`. -/
theorem vec_as_row_apply (h : (⟨1, ![m]⟩ : Shape).BroadcastsInDim ⟨2, ![1, m]⟩ ![1]) (v : (⟨1, ![m]⟩ : Shape).Idx → α)
    (u : Fin 1) (q : Fin m) : broadcastInDim ⟨2, ![1, m]⟩ ![1] h v (ix2 u q) = v (ix1 q) :=
  broadcastInDim_apply _ h v _ _ fun a => by
    match a with
    | ⟨0, _⟩ =>
      show q.val = if m = 1 then 0 else q.val
      have := q.isLt; split <;> omega

/-- A vector as a one-column matrix: entry `(p, 0)` is the vector's entry `p`. -/
theorem vec_as_col_apply (h : (⟨1, ![n]⟩ : Shape).BroadcastsInDim ⟨2, ![n, 1]⟩ ![0]) (v : (⟨1, ![n]⟩ : Shape).Idx → α)
    (p : Fin n) (u : Fin 1) : broadcastInDim ⟨2, ![n, 1]⟩ ![0] h v (ix2 p u) = v (ix1 p) :=
  broadcastInDim_apply _ h v _ _ fun a => by
    match a with
    | ⟨0, _⟩ =>
      show p.val = if n = 1 then 0 else p.val
      have := p.isLt; split <;> omega

/-- A one-row matrix repeated down `n` rows: entry `(p, q)` is the row's entry `q`. -/
theorem row_down_apply (h : (⟨2, ![1, m]⟩ : Shape).BroadcastsInDim ⟨2, ![n, m]⟩ ![0, 1]) (v : (⟨2, ![1, m]⟩ : Shape).Idx → α)
    (p : Fin n) (q : Fin m) : broadcastInDim ⟨2, ![n, m]⟩ ![0, 1] h v (ix2 p q) = v (ix2 0 q) :=
  broadcastInDim_apply _ h v _ _ fun a => by
    match a with
    | ⟨0, _⟩ => show (0 : ℕ) = if (1 : ℕ) = 1 then 0 else p.val; rw [if_pos rfl]
    | ⟨1, _⟩ =>
      show q.val = if m = 1 then 0 else q.val
      have := q.isLt; split <;> omega

/-- A one-column matrix repeated along `m` columns: entry `(p, q)` is the column's entry `p`. -/
theorem col_along_apply (h : (⟨2, ![n, 1]⟩ : Shape).BroadcastsInDim ⟨2, ![n, m]⟩ ![0, 1]) (v : (⟨2, ![n, 1]⟩ : Shape).Idx → α)
    (p : Fin n) (q : Fin m) : broadcastInDim ⟨2, ![n, m]⟩ ![0, 1] h v (ix2 p q) = v (ix2 p 0) :=
  broadcastInDim_apply _ h v _ _ fun a => by
    match a with
    | ⟨0, _⟩ =>
      show p.val = if n = 1 then 0 else p.val
      have := p.isLt; split <;> omega
    | ⟨1, _⟩ => show (0 : ℕ) = if (1 : ℕ) = 1 then 0 else q.val; rw [if_pos rfl]

end Cert.LibBroadcastRead
-- ==== Proof.LibLinearRows.lean ====
/-
  A linear layer applied to every row of a matrix, read entry by entry, for every size.

  For `x` of `N` rows and `K` columns, weights `w` of `M` rows and `K` columns and a bias `b` of `M` entries, the
  layer's output has at `(p, j)` the value `(∑ k, x (p, k) · w (j, k)) + b j` on the extended reals (`linearRows`).
  Two spellings of it are met. A matrix unit rounds both operands to a narrower float format (the identity on the
  extended reals), transposes the weights to `K × M`, multiplies into a zero accumulator and adds the bias laid along
  the rows by a recast to `[1, M]` and a vector broadcast. The host transposes the weights, takes the plain product and
  adds the bias laid out by two broadcasts. Both are `linearRows`. Any block of consecutive rows of the output is the
  layer applied to that block of rows of `x` (`linearRows_block`): an output row depends on its own input row only.
-/
import Idealize.ShloMosaic.PureOps.Ideal.Laws
import Idealize.ShloMosaic.Lib.ValueIdx
import Idealize.ShloMosaic.Lib.ValueLayout
import Idealize.ShloMosaic.Lib.Pipeline.Value
import proofs.«175182_j11940009083287_1_alg».proof.Proof.LibPlainProduct
import proofs.«175182_j11940009083287_1_alg».proof.Proof.LibBroadcastRead

noncomputable section

open scoped BigOperators

namespace Cert.LibLinearRows

open Idealize.ShloMosaic Idealize.ShloMosaic.ValueIdx Idealize.ShloMosaic.Pipeline

variable {N K M : ℕ}

/-- The layer's output: entry `(p, j)` is `(∑ k, x (p, k) · w (j, k)) + b j`. -/
def linearRows (x : FVec Ideal ⟨2, ![N, K]⟩ .f32) (w : FVec Ideal ⟨2, ![M, K]⟩ .f32) (b : FVec Ideal ⟨1, ![M]⟩ .f32) :
    FVec Ideal ⟨2, ![N, M]⟩ .f32 :=
  fun i => (∑ k : Fin K, x (ix2 (i 0) k) * w (ix2 (i 1) k)) + b (ix1 (i 1))

theorem linearRows_apply (x : FVec Ideal ⟨2, ![N, K]⟩ .f32) (w : FVec Ideal ⟨2, ![M, K]⟩ .f32) (b : FVec Ideal ⟨1, ![M]⟩ .f32)
    (p : Fin N) (j : Fin M) : linearRows x w b (ix2 p j) = (∑ k : Fin K, x (ix2 p k) * w (ix2 j k)) + b (ix1 j) := rfl

/-- The transposed weights at `(k, j)` are the weights at `(j, k)`. -/
theorem transposed_apply {α : Type} (w : (⟨2, ![M, K]⟩ : Shape).Idx → α) (h : (⟨2, ![M, K]⟩ : Shape).Transposes [1, 0] ⟨2, ![K, M]⟩)
    (k : Fin K) (j : Fin M) : transpose ⟨2, ![K, M]⟩ [1, 0] w h (ix2 k j) = w (ix2 j k) :=
  transpose_apply [1, 0] w h (ix2 k j) (ix2 j k) fun a => by
    match a with
    | ⟨0, _⟩ => rfl
    | ⟨1, _⟩ => rfl

/-- The matrix unit's spelling. -/
theorem matmul_form (x : FVec Ideal ⟨2, ![N, K]⟩ .f32) (w : FVec Ideal ⟨2, ![M, K]⟩ .f32) (b : FVec Ideal ⟨1, ![M]⟩ .f32)
    (hn : FTy.bf16.bits < FTy.f32.bits) (ht : (⟨2, ![M, K]⟩ : Shape).Transposes [1, 0] ⟨2, ![K, M]⟩)
    (hc : (⟨1, ![M]⟩ : Shape).ShapeCasts ⟨2, ![1, M]⟩) (hb : (⟨2, ![1, M]⟩ : Shape).Broadcasts ⟨2, ![N, M]⟩)
    (d : DotDims ⟨2, ![N, K]⟩ ⟨2, ![K, M]⟩ ⟨2, ![N, M]⟩) (hd : d = DotDims.plain N K M) :
    addf (matmul d none (truncf .bf16 x hn) (transpose ⟨2, ![K, M]⟩ [1, 0] (truncf .bf16 w hn) ht)
        (constant ⟨2, ![N, M]⟩ .f32 0x00000000#32))
      (broadcastTo ⟨2, ![N, M]⟩ (shapeCast ⟨2, ![1, M]⟩ b hc) hb) = linearRows x w b := by
  subst hd
  funext i
  obtain ⟨p, j, rfl⟩ : ∃ (p : Fin N) (j : Fin M), i = ix2 p j := ⟨i 0, i 1, eq_ix2 i⟩
  unfold matmul
  rw [addf_apply, Cert.LibPlainProduct.matmul_zero_plain_apply, broadcastTo_1b_ab_apply, shapeCast_a_1a_apply,
    linearRows_apply]
  congr 1
  exact Finset.sum_congr rfl fun k _ => by rw [truncf_apply, transposed_apply, truncf_apply]

/-- The host's spelling. -/
theorem host_form (x : FVec Ideal ⟨2, ![N, K]⟩ .f32) (w : FVec Ideal ⟨2, ![M, K]⟩ .f32) (b : FVec Ideal ⟨1, ![M]⟩ .f32)
    (ht : (⟨2, ![M, K]⟩ : Shape).Transposes [1, 0] ⟨2, ![K, M]⟩)
    (h1 : (⟨1, ![M]⟩ : Shape).BroadcastsInDim ⟨2, ![1, M]⟩ ![1])
    (h01 : (⟨2, ![1, M]⟩ : Shape).BroadcastsInDim ⟨2, ![N, M]⟩ ![0, 1])
    (d : DotDims ⟨2, ![N, K]⟩ ⟨2, ![K, M]⟩ ⟨2, ![N, M]⟩) (hd : d = DotDims.plain N K M) :
    addf (Host.dotGeneral d none x (transpose ⟨2, ![K, M]⟩ [1, 0] w ht))
      (broadcastInDim ⟨2, ![N, M]⟩ ![0, 1] h01 (broadcastInDim ⟨2, ![1, M]⟩ ![1] h1 b)) = linearRows x w b := by
  subst hd
  funext i
  obtain ⟨p, j, rfl⟩ : ∃ (p : Fin N) (j : Fin M), i = ix2 p j := ⟨i 0, i 1, eq_ix2 i⟩
  unfold Host.dotGeneral
  rw [addf_apply, Cert.LibPlainProduct.dotGeneral_plain_apply, Cert.LibBroadcastRead.row_down_apply,
    Cert.LibBroadcastRead.vec_as_row_apply, linearRows_apply]
  congr 1
  exact Finset.sum_congr rfl fun k _ => by rw [transposed_apply]

/-- A block of rows of the output is the layer applied to that block of rows of the input: row `r` of a block `xb`
    that holds the rows `e r` of `x` gives row `e r` of the whole output. -/
theorem linearRows_block {B : ℕ} (x : FVec Ideal ⟨2, ![N, K]⟩ .f32) (w : FVec Ideal ⟨2, ![M, K]⟩ .f32)
    (b : FVec Ideal ⟨1, ![M]⟩ .f32) (xb : FVec Ideal ⟨2, ![B, K]⟩ .f32) (e : Fin B → Fin N)
    (hx : ∀ r k, xb (ix2 r k) = x (ix2 (e r) k)) (r : Fin B) (j : Fin M) :
    linearRows xb w b (ix2 r j) = linearRows x w b (ix2 (e r) j) := by
  rw [linearRows_apply, linearRows_apply]
  simp only [hx]

end Cert.LibLinearRows

end
-- ==== Proof.LibPreparedRows.lean ====
/-
  A dense layer whose weights arrive already transposed and whose bias arrives already laid out as one row.

  The layer of `LibLinearRows`, entry `(p, j) ↦ (∑ k, x (p, k) · w (j, k)) + b j`, is met here in a third spelling. The
  weights are transposed to `K × M` and the bias is recast to `[1, M]` BEFORE the matrix unit sees them; the unit then
  rounds a block of rows of `x` and the transposed weights to a narrower float format (the identity on the extended
  reals), multiplies into a zero accumulator and adds the row, repeated down the block. Reading the transposed weights
  at `(k, j)` as the weights at `(j, k)`, and the row at `(0, j)` as the bias at `j`, the block's result is the layer
  applied to the block: the sum over `k` is the same sum, term by term. No law of the extended reals is used beyond
  that; in particular nothing here needs the entries to be finite.

  `tanhAll` is the hyperbolic tangent on every entry (`-1` at `⊥`, `1` at `⊤`): the vector unit's and the host's
  tangent are both it.
-/
import Idealize.ShloMosaic.PureOps.Ideal.Laws
import Idealize.ShloMosaic.Lib.ValueIdx
import Idealize.ShloMosaic.Lib.ValueLayout
import Idealize.ShloMosaic.Lib.Pipeline.Value
import proofs.«175182_j11940009083287_1_alg».proof.Proof.LibLinearRows

noncomputable section

open scoped BigOperators

namespace Cert.LibPreparedRows

open Idealize.ShloMosaic Idealize.ShloMosaic.ValueIdx Idealize.ShloMosaic.Pipeline Cert.LibLinearRows

variable {B K M : ℕ}

/-- The hyperbolic tangent of every entry. -/
def tanhAll {s : Shape} (v : FVec Ideal s .f32) : FVec Ideal s .f32 := fun i => Ideal.tanh (v i)

theorem tanhAll_apply {s : Shape} (v : FVec Ideal s .f32) (i : s.Idx) : tanhAll v i = Ideal.tanh (v i) := rfl

/-- The vector unit's tangent is it. -/
theorem tanh_eq_tanhAll {s : Shape} (v : FVec Ideal s .f32) : tanh v = tanhAll v := rfl

/-- And so is the host's. -/
theorem hostTanh_eq_tanhAll {s : Shape} (v : FVec Ideal s .f32) : Host.tanh v = tanhAll v := rfl

/-- The matrix unit's spelling over operands prepared beforehand: `wT` holds the transposed weights (`hwT`), `b2` the
    bias as one row (`hb2`). -/
theorem prepared_form (x : FVec Ideal ⟨2, ![B, K]⟩ .f32) (w : FVec Ideal ⟨2, ![M, K]⟩ .f32) (b : FVec Ideal ⟨1, ![M]⟩ .f32)
    (wT : FVec Ideal ⟨2, ![K, M]⟩ .f32) (b2 : FVec Ideal ⟨2, ![1, M]⟩ .f32)
    (hwT : ∀ (k : Fin K) (j : Fin M), wT (ix2 k j) = w (ix2 j k)) (hb2 : ∀ j : Fin M, b2 (ix2 (0 : Fin 1) j) = b (ix1 j))
    (hn : FTy.bf16.bits < FTy.f32.bits) (hb : (⟨2, ![1, M]⟩ : Shape).Broadcasts ⟨2, ![B, M]⟩)
    (d : DotDims ⟨2, ![B, K]⟩ ⟨2, ![K, M]⟩ ⟨2, ![B, M]⟩) (hd : d = DotDims.plain B K M) :
    addf (matmul d none (truncf .bf16 x hn) (truncf .bf16 wT hn) (constant ⟨2, ![B, M]⟩ .f32 0x00000000#32))
      (broadcastTo ⟨2, ![B, M]⟩ b2 hb) = linearRows x w b := by
  subst hd
  funext i
  obtain ⟨p, j, rfl⟩ : ∃ (p : Fin B) (j : Fin M), i = ix2 p j := ⟨i 0, i 1, eq_ix2 i⟩
  unfold matmul
  rw [addf_apply, Cert.LibPlainProduct.matmul_zero_plain_apply, broadcastTo_1b_ab_apply, hb2, linearRows_apply]
  congr 1
  exact Finset.sum_congr rfl fun k _ => by rw [truncf_apply, truncf_apply, hwT]

end Cert.LibPreparedRows

end
-- ==== Proof.Net.lean ====
/-
  The network as one function of its inputs, over an arbitrary aggregation step.

  A layer is `tanh (h · wᵀ + b)` on every row of a 50000 × 128 array (`layer`). The network applies the input layer, then
  three times an aggregation `A` of the hidden array followed by a layer, and ends with the affine output projection to
  64 columns, with no tangent. The aggregation is left a parameter: both programs use the same gather of source rows
  and scatter-add into destination rows, and nothing about the layers depends on what it computes.
-/
import proofs.«175182_j11940009083287_1_alg».proof.Proof.LibLinearRows
import proofs.«175182_j11940009083287_1_alg».proof.Proof.LibPreparedRows

noncomputable section

namespace Cert.Net

open Idealize.ShloMosaic Cert.LibLinearRows Cert.LibPreparedRows

/-- The hidden array: one 128-entry row per node. -/
abbrev Hidden := FVec Ideal ⟨2, ![50000, 128]⟩ .f32

/-- One layer: the tangent of `h · wᵀ + b`, row by row. -/
def layer (h : Hidden) (w : FVec Ideal ⟨2, ![128, 128]⟩ .f32) (b : FVec Ideal ⟨1, ![128]⟩ .f32) : Hidden :=
  tanhAll (linearRows h w b)

/-- The whole network over the aggregation `A`. -/
def net (A : Hidden → Hidden) (x : Hidden)
    (wIn : FVec Ideal ⟨2, ![128, 128]⟩ .f32) (bIn : FVec Ideal ⟨1, ![128]⟩ .f32)
    (w1 : FVec Ideal ⟨2, ![128, 128]⟩ .f32) (b1 : FVec Ideal ⟨1, ![128]⟩ .f32)
    (w2 : FVec Ideal ⟨2, ![128, 128]⟩ .f32) (b2 : FVec Ideal ⟨1, ![128]⟩ .f32)
    (w3 : FVec Ideal ⟨2, ![128, 128]⟩ .f32) (b3 : FVec Ideal ⟨1, ![128]⟩ .f32)
    (wOut : FVec Ideal ⟨2, ![64, 128]⟩ .f32) (bOut : FVec Ideal ⟨1, ![64]⟩ .f32) : FVec Ideal ⟨2, ![50000, 64]⟩ .f32 :=
  linearRows (layer (A (layer (A (layer (A (layer x wIn bIn)) w1 b1)) w2 b2)) w3 b3) wOut bOut

end Cert.Net

end
-- ==== Proof.KernelNet.lean ====
/-
  What the idealized kernel program's result array holds when @main returns: the network of `Net.net`, over the
  aggregation the host operations between the launches compute.

  @main is five launches among stretches of host operations, and the buffer contents at each boundary are a fold
  from the launch memory. Three kinds of fact carry a value through that fold. A host stretch writes its own results
  and nothing else, so a buffer it does not write holds what it held (the arguments, and the two index rows sliced out
  of the edge list before the first launch). A launch writes its output array and nothing else. This module states
  those two kinds of fact once, for the ten buffers that are read later than they are made, and carries their values
  from the launch memory to every boundary; it also names the hidden arrays `h0` … `h3` the walk through @main will find.
  The third kind of fact, that a launch's output array ends as the layer of its input array, is the business of the
  modules `Hidden0` … `Hidden3` and `KernelResult`, one launch each.
-/
import proofs.«175182_j11940009083287_1_alg».proof.Proof.Gen.KernelIdeal.Frame
import proofs.«175182_j11940009083287_1_alg».proof.Proof.Net
import Idealize.ShloMosaic.Lib.StableHlo.Run
import Idealize.ShloMosaic.Lib.ValueLayout

set_option maxRecDepth 16384

noncomputable section

namespace Cert.KernelIdeal.Whole

open Idealize.ShloMosaic Idealize.ShloMosaic.TcCoe Idealize.ShloMosaic.ValueIdx Idealize.SL.Sem Idealize.ShloMosaic.StableHlo
open Cert.KernelIdeal Cert.KernelIdeal.Gen Cert.LibLinearRows Cert.LibPreparedRows Cert.Net

/-- The edge list, and one row of it as a vector of node numbers. -/
abbrev Edges := (⟨S2x640000, .i32⟩ : BufTy).Contents (Elt Ideal)
abbrev NodeIds := (⟨S640000, .i32⟩ : BufTy).Contents (Elt Ideal)

/-- The destination node of every edge: row 0 of the edge list. -/
def dstRows (ei : Edges) : NodeIds :=
  shapeCast S640000 (extractStridedSlice S1x640000 ![0, 0] ei slices_S2x640000_S1x640000_0_0) shapeCasts_S1x640000_S640000

/-- The source node of every edge: row 1 of the edge list. -/
def srcRows (ei : Edges) : NodeIds :=
  shapeCast S640000 (extractStridedSlice S1x640000 ![1, 0] ei slices_S2x640000_S1x640000_1_0) shapeCasts_S1x640000_S640000

/-- The aggregation: gather the hidden rows of the edges' sources (a negative node number counted from the end), and
    add each gathered row into the row of its edge's destination, starting from zero. -/
def aggr (dst src : NodeIds) (h : FVec Ideal S50000x128 .f32) : FVec Ideal S50000x128 .f32 :=
  Host.scatterAdd scatter_S50000x128_S640000x1_S640000x128_1_0_0_1
    (broadcastInDim S50000x128 ![] bcast_S_S50000x128 (constant (F := Ideal) S_ .f32 0x00000000#32))
    (broadcastInDim S640000x1 ![0] bcast_S640000_S640000x1_0 dst)
    (Host.gather gather_S50000x128_S640000x1_S640000x128_1_0_n_n_0_1_1128 h
      (broadcastInDim S640000x1 ![0] bcast_S640000_S640000x1_0
        (select (cmpi .slt src (broadcastInDim S640000 ![] bcast_S_S640000 (constantI S_ 32 0#32)))
          (addi src (broadcastInDim S640000 ![] bcast_S_S640000 (constantI S_ 32 50000#32))) src)))

variable (m : (ℓ : Loc nD τ sig) → Buf (Elt Ideal) ℓ) (ρ : Dev nD → PrngReg)

/-! ## What passes through a stretch or a launch untouched -/

/-- The buffers read later than they are made: the two index rows and the weights and biases of the later layers. -/
def carried : List (Ref sig .tc) :=
  [main_v1, main_v3, main_arg4, main_arg5, main_arg6, main_arg7, main_arg8, main_arg9, main_arg10, main_arg11]

/-- `W'` holds at every carried buffer what `W` holds. -/
def Same (W W' : Valuation τ sig (Elt Ideal)) : Prop := ∀ b ∈ carried, W' (Proc.devRef .tc b) = W (Proc.devRef .tc b)

/-- The carried buffers at their values in terms of the launch memory. -/
structure Kept (c : Dev nD) (W : Valuation τ sig (Elt Ideal)) : Prop where
  dst : W (Proc.devRef .tc main_v1) = dstRows (m ((c : Thread nD τ).loc main_arg1))
  src : W (Proc.devRef .tc main_v3) = srcRows (m ((c : Thread nD τ).loc main_arg1))
  a4 : W (Proc.devRef .tc main_arg4) = m ((c : Thread nD τ).loc main_arg4)
  a5 : W (Proc.devRef .tc main_arg5) = m ((c : Thread nD τ).loc main_arg5)
  a6 : W (Proc.devRef .tc main_arg6) = m ((c : Thread nD τ).loc main_arg6)
  a7 : W (Proc.devRef .tc main_arg7) = m ((c : Thread nD τ).loc main_arg7)
  a8 : W (Proc.devRef .tc main_arg8) = m ((c : Thread nD τ).loc main_arg8)
  a9 : W (Proc.devRef .tc main_arg9) = m ((c : Thread nD τ).loc main_arg9)
  a10 : W (Proc.devRef .tc main_arg10) = m ((c : Thread nD τ).loc main_arg10)
  a11 : W (Proc.devRef .tc main_arg11) = m ((c : Thread nD τ).loc main_arg11)

theorem Kept.of_same {c : Dev nD} {W W' : Valuation τ sig (Elt Ideal)} (k : Kept m c W) (h : Same W W') : Kept m c W' where
  dst := (h main_v1 (by simp [carried])).trans k.dst
  src := (h main_v3 (by simp [carried])).trans k.src
  a4 := (h main_arg4 (by simp [carried])).trans k.a4
  a5 := (h main_arg5 (by simp [carried])).trans k.a5
  a6 := (h main_arg6 (by simp [carried])).trans k.a6
  a7 := (h main_arg7 (by simp [carried])).trans k.a7
  a8 := (h main_arg8 (by simp [carried])).trans k.a8
  a9 := (h main_arg9 (by simp [carried])).trans k.a9
  a10 := (h main_arg10 (by simp [carried])).trans k.a10
  a11 := (h main_arg11 (by simp [carried])).trans k.a11

/-- The stretch between the first two launches writes no carried buffer. -/
theorem stretch1 (W : Valuation τ sig (Elt Ideal)) : Same W (StableHlo.after hostOps1 W) := by
  intro b hb
  simp only [carried, List.mem_cons, List.not_mem_nil, or_false] at hb
  rcases hb with rfl | rfl | rfl | rfl | rfl | rfl | rfl | rfl | rfl | rfl <;> (after_results <;> rfl)

theorem stretch2 (W : Valuation τ sig (Elt Ideal)) : Same W (StableHlo.after hostOps2 W) := by
  intro b hb
  simp only [carried, List.mem_cons, List.not_mem_nil, or_false] at hb
  rcases hb with rfl | rfl | rfl | rfl | rfl | rfl | rfl | rfl | rfl | rfl <;> (after_results <;> rfl)

theorem stretch3 (W : Valuation τ sig (Elt Ideal)) : Same W (StableHlo.after hostOps3 W) := by
  intro b hb
  simp only [carried, List.mem_cons, List.not_mem_nil, or_false] at hb
  rcases hb with rfl | rfl | rfl | rfl | rfl | rfl | rfl | rfl | rfl | rfl <;> (after_results <;> rfl)

/-- No launch has a carried buffer among its arrays. -/
theorem launch0 (c : Dev nD) : Same (W1 m ρ c) (W2 m ρ c) := by
  intro b hb
  simp only [carried, List.mem_cons, List.not_mem_nil, or_false] at hb
  rcases hb with rfl | rfl | rfl | rfl | rfl | rfl | rfl | rfl | rfl | rfl <;> exact W2_of_ne m ρ c _ (by decide)

theorem launch1 (c : Dev nD) : Same (W3 m ρ c) (W4 m ρ c) := by
  intro b hb
  simp only [carried, List.mem_cons, List.not_mem_nil, or_false] at hb
  rcases hb with rfl | rfl | rfl | rfl | rfl | rfl | rfl | rfl | rfl | rfl <;> exact W4_of_ne m ρ c _ (by decide)

theorem launch2 (c : Dev nD) : Same (W5 m ρ c) (W6 m ρ c) := by
  intro b hb
  simp only [carried, List.mem_cons, List.not_mem_nil, or_false] at hb
  rcases hb with rfl | rfl | rfl | rfl | rfl | rfl | rfl | rfl | rfl | rfl <;> exact W6_of_ne m ρ c _ (by decide)

theorem launch3 (c : Dev nD) : Same (W7 m ρ c) (W8 m ρ c) := by
  intro b hb
  simp only [carried, List.mem_cons, List.not_mem_nil, or_false] at hb
  rcases hb with rfl | rfl | rfl | rfl | rfl | rfl | rfl | rfl | rfl | rfl <;> exact W8_of_ne m ρ c _ (by decide)

/-- Before the first launch: the index rows are sliced out of the edge list, the later arguments are untouched. -/
theorem kept1 (c : Dev nD) : Kept m c (W1 m ρ c) where
  dst := by show StableHlo.after hostOps0 (W0 m ρ c) (Proc.devRef .tc main_v1) = _; after_results <;> rfl
  src := by show StableHlo.after hostOps0 (W0 m ρ c) (Proc.devRef .tc main_v3) = _; after_results <;> rfl
  a4 := by show StableHlo.after hostOps0 (W0 m ρ c) (Proc.devRef .tc main_arg4) = _; after_results <;> rfl
  a5 := by show StableHlo.after hostOps0 (W0 m ρ c) (Proc.devRef .tc main_arg5) = _; after_results <;> rfl
  a6 := by show StableHlo.after hostOps0 (W0 m ρ c) (Proc.devRef .tc main_arg6) = _; after_results <;> rfl
  a7 := by show StableHlo.after hostOps0 (W0 m ρ c) (Proc.devRef .tc main_arg7) = _; after_results <;> rfl
  a8 := by show StableHlo.after hostOps0 (W0 m ρ c) (Proc.devRef .tc main_arg8) = _; after_results <;> rfl
  a9 := by show StableHlo.after hostOps0 (W0 m ρ c) (Proc.devRef .tc main_arg9) = _; after_results <;> rfl
  a10 := by show StableHlo.after hostOps0 (W0 m ρ c) (Proc.devRef .tc main_arg10) = _; after_results <;> rfl
  a11 := by show StableHlo.after hostOps0 (W0 m ρ c) (Proc.devRef .tc main_arg11) = _; after_results <;> rfl

theorem kept2 (c : Dev nD) : Kept m c (W2 m ρ c) := (kept1 m ρ c).of_same m (launch0 m ρ c)
theorem kept3 (c : Dev nD) : Kept m c (W3 m ρ c) := (kept2 m ρ c).of_same m (stretch1 _)
theorem kept4 (c : Dev nD) : Kept m c (W4 m ρ c) := (kept3 m ρ c).of_same m (launch1 m ρ c)
theorem kept5 (c : Dev nD) : Kept m c (W5 m ρ c) := (kept4 m ρ c).of_same m (stretch2 _)
theorem kept6 (c : Dev nD) : Kept m c (W6 m ρ c) := (kept5 m ρ c).of_same m (launch2 m ρ c)
theorem kept7 (c : Dev nD) : Kept m c (W7 m ρ c) := (kept6 m ρ c).of_same m (stretch3 _)
theorem kept8 (c : Dev nD) : Kept m c (W8 m ρ c) := (kept7 m ρ c).of_same m (launch3 m ρ c)

/-! ## The hidden arrays, launch by launch -/

/-- The aggregation at the program's own index rows. -/
abbrev agg (c : Dev nD) : Hidden → Hidden :=
  aggr (dstRows (m ((c : Thread nD τ).loc main_arg1))) (srcRows (m ((c : Thread nD τ).loc main_arg1)))

/-- The hidden array after the input layer, and after each of the three rounds of aggregation and layer. -/
def h0 (c : Dev nD) : Hidden := layer (m ((c : Thread nD τ).loc main_arg0)) (m ((c : Thread nD τ).loc main_arg2)) (m ((c : Thread nD τ).loc main_arg3))
def h1 (c : Dev nD) : Hidden := layer (agg m c (h0 m c)) (m ((c : Thread nD τ).loc main_arg4)) (m ((c : Thread nD τ).loc main_arg5))
def h2 (c : Dev nD) : Hidden := layer (agg m c (h1 m c)) (m ((c : Thread nD τ).loc main_arg6)) (m ((c : Thread nD τ).loc main_arg7))
def h3 (c : Dev nD) : Hidden := layer (agg m c (h2 m c)) (m ((c : Thread nD τ).loc main_arg8)) (m ((c : Thread nD τ).loc main_arg9))

end Cert.KernelIdeal.Whole

end
-- ==== Proof.Stage0.lean ====
/-
  A dense layer under the tangent, launched as region 0 of @main: what its output array holds when the region ends.

  The region runs five grid points; point `t` stages rows `10000·t … 10000·t + 9999` of the input array, the whole
  transposed weight matrix and the whole bias row, and writes back the same rows of the output. On a block the body
  computes `tanh (xb · wT + b2)` with the matrix unit's roundings, which are the identity on the extended reals
  (`LibPreparedRows.prepared_form`), and an output row depends on its own input row only (`LibLinearRows.linearRows_block`). So
  the block written at `t` is block `t` of the whole-array function `tanhAll (linearRows x w b)`, where `w` and `b` are
  any weights and bias the staged operands are the transpose and the row of. The five blocks tile the array (row `i`
  lies in block `i / 10000`), so the array ends holding that function.
-/
import proofs.«175182_j11940009083287_1_alg».proof.Proof.Gen.KernelIdeal.Frame
import proofs.«175182_j11940009083287_1_alg».proof.Proof.LibPreparedRows
import Idealize.ShloMosaic.Lib.Pipeline.Value
import Idealize.ShloMosaic.Lib.ValueIdx

set_option maxRecDepth 16384

noncomputable section

namespace Cert.KernelIdeal.Stage0

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.LibLinearRows Cert.LibPreparedRows

variable (V : (c : Dev nD) → (b : Ref sig .tc) → Buf (Elt Ideal) ((c : Thread nD τ).loc b))

theorem origin : (![0, 0] : Fin 2 → Nat) = fun _ => 0 := funext fun a => by fin_cases a <;> rfl

/-- The printed index maps over the grid: the input rows and the output rows move with the point, the weights and
    the bias row stay. -/
theorem block_indices : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The body's value on a block: with the block `xb` holding rows `e r` of `x`, the transposed weights and the bias row
    as prepared, entry `(r, j)` of the result is entry `(e r, j)` of the whole layer under the tangent. -/
theorem block_value (x : FVec Ideal S50000x128 .f32) (xb : FVec Ideal S10000x128 .f32) (wT : FVec Ideal S128x128 .f32)
    (b2 : FVec Ideal S1x128 .f32) (w : FVec Ideal S128x128 .f32) (b : FVec Ideal S128 .f32)
    (hw : ∀ (k : Fin 128) (j : Fin 128), wT (ix2 k j) = w (ix2 j k)) (hb : ∀ j : Fin 128, b2 (ix2 (0 : Fin 1) j) = b (ix1 j))
    (e : Fin 10000 → Fin 50000) (hx : ∀ (r : Fin 10000) (k : Fin 128), xb (ix2 r k) = x (ix2 (e r) k)) (r : Fin 10000) (j : Fin 128) :
    k0_pay1 (F := Ideal) xb wT b2 (ix2 r j) = tanhAll (linearRows x w b) (ix2 (e r) j) := by
  have h := prepared_form xb w b wT b2 hw hb bitsLt_bf16_f32 broadcasts_S1x128_S10000x128
    dot_S10000x128_S128x128_S10000x128_1_0_0_1_n_n rfl
  unfold k0_pay1
  simp only [shapeCast_self]
  rw [tanh_eq_tanhAll, h, tanhAll_apply, tanhAll_apply]
  exact congrArg Ideal.tanh (linearRows_block x w b xb e hx r j)

/-- What point `t` writes back is block `t` of the layer of the whole input array. -/
theorem flushed (c : Dev nD) (w : FVec Ideal S128x128 .f32) (b : FVec Ideal S128 .f32)
    (hw : ∀ (k : Fin 128) (j : Fin 128), (V c main_v4 : FVec Ideal S128x128 .f32) (ix2 k j) = w (ix2 j k))
    (hb : ∀ j : Fin 128, (V c main_v5 : FVec Ideal S1x128 .f32) (ix2 (0 : Fin 1) j) = b (ix1 j)) (t : Fin cfg0.N) :
    (dat0 V c).flushed 3 t = ((cfg0.win 3).blk t).view.read (Elt Ideal) (tanhAll (linearRows (V c main_arg0 : FVec Ideal S50000x128 .f32) w b)) := by
  show (cfg0.win 3).cut (grid0.coords t) ((dat0 V c).after 3 t) = _
  rw [after0_3]
  unfold out0_3
  rw [View.canon_unit_zero origin]
  simp only [View.ld_unit_zero (S := S10000x128) origin, View.ld_unit_zero (S := S128x128) origin, View.ld_unit_zero (S := S1x128) origin]
  funext y
  obtain ⟨r, j, rfl⟩ : ∃ (r : Fin 10000) (j : Fin 128), y = ix2 r j := ⟨y 0, y 1, eq_ix2 y⟩
  obtain ⟨e0, e1, e2, e3, e4, e5, e6, e7⟩ := block_indices t
  have ht : t.val < 5 := lt_of_lt_of_eq t.isLt N_0
  show k0_pay1 (F := Ideal) (iblk0 V c 0 t) (iblk0 V c 1 t) (iblk0 V c 2 t) (ix2 r j)
    = tanhAll (linearRows (V c main_arg0 : FVec Ideal S50000x128 .f32) w b) (((cfg0.win 3).blk t).view.emb (ix2 r j))
  refine (block_value (V c main_arg0) (iblk0 V c 0 t) (iblk0 V c 1 t) (iblk0 V c 2 t) w b ?_ ?_
    (fun r => ⟨t.val * 10000 + r.val, by have := r.isLt; omega⟩) ?_ r j).trans ?_
  · intro k j
    show (V c main_v4 : FVec Ideal S128x128 .f32) (((cfg0.win 1).blk t).view.emb (ix2 k j)) = _
    rw [← hw k j]
    refine congrArg _ (funext fun a => Fin.ext ?_)
    match a with
    | ⟨0, _⟩ => show win0_1.index t (0 : Fin 2) * 128 + 1 * k.val = k.val; omega
    | ⟨1, _⟩ => show win0_1.index t (1 : Fin 2) * 128 + 1 * j.val = j.val; omega
  · intro j
    show (V c main_v5 : FVec Ideal S1x128 .f32) (((cfg0.win 2).blk t).view.emb (ix2 (0 : Fin 1) j)) = _
    rw [← hb j]
    refine congrArg _ (funext fun a => Fin.ext ?_)
    match a with
    | ⟨0, _⟩ => show win0_2.index t (0 : Fin 2) * 1 + 1 * (0 : Fin 1).val = (0 : Fin 1).val; omega
    | ⟨1, _⟩ => show win0_2.index t (1 : Fin 2) * 128 + 1 * j.val = j.val; omega
  · intro r k
    show (V c main_arg0 : FVec Ideal S50000x128 .f32) (((cfg0.win 0).blk t).view.emb (ix2 r k)) = _
    refine congrArg _ (funext fun a => Fin.ext ?_)
    match a with
    | ⟨0, _⟩ => show win0_0.index t (0 : Fin 2) * 10000 + 1 * r.val = t.val * 10000 + r.val; omega
    | ⟨1, _⟩ => show win0_0.index t (1 : Fin 2) * 128 + 1 * k.val = k.val; omega
  · refine congrArg _ (funext fun a => Fin.ext ?_)
    match a with
    | ⟨0, _⟩ => show t.val * 10000 + r.val = win0_3.index t (0 : Fin 2) * 10000 + 1 * r.val; omega
    | ⟨1, _⟩ => show j.val = win0_3.index t (1 : Fin 2) * 128 + 1 * j.val; omega

/-- An index of the output array is in point `t`'s block iff each coordinate is in the block's range on its axis. -/
theorem mem_block (t : Fin cfg0.N) (i : S50000x128.Idx) :
    i ∈ ((cfg0.win 3).blk t).view.set ↔ ∀ a : Fin 2, win0_3.index t a * S10000x128.size a ≤ (i a).val ∧ (i a).val < win0_3.index t a * S10000x128.size a + S10000x128.size a := by
  show i ∈ ((View.whole main_v6).slice (win0_3.rect t)).set ↔ _
  rw [View.set_slice_whole, Rect.mem_set_unit]
  exact Iff.rfl

/-- Every row of the output lies in the block of the point `row / 10000`. -/
theorem covered (i : S50000x128.Idx) : ∃ t : Fin cfg0.N, (cfg0.win 3).flush t = true ∧ i ∈ ((cfg0.win 3).blk t).view.set := by
  have hi0 : (i 0).val < 50000 := (i 0).isLt
  have hi1 : (i 1).val < 128 := (i 1).isLt
  have hN : cfg0.N = 5 := N_0
  let t : Fin cfg0.N := ⟨(i 0).val / 10000, by rw [hN]; omega⟩
  have htv : t.val = (i 0).val / 10000 := rfl
  obtain ⟨-, -, -, -, -, -, e6, e7⟩ := block_indices t
  refine ⟨t, flush0_3 t, ?_⟩
  rw [mem_block]
  intro a
  match a with
  | ⟨0, _⟩ => show win0_3.index t (0 : Fin 2) * 10000 ≤ (i 0).val ∧ (i 0).val < win0_3.index t (0 : Fin 2) * 10000 + 10000; omega
  | ⟨1, _⟩ => show win0_3.index t (1 : Fin 2) * 128 ≤ (i 1).val ∧ (i 1).val < win0_3.index t (1 : Fin 2) * 128 + 128; omega

/-- THE OUTPUT ARRAY when the region ends: the layer of the input array as the region found it, for any weights and
    bias whose transpose and row the staged operands are. -/
theorem result (c : Dev nD) (w : FVec Ideal S128x128 .f32) (b : FVec Ideal S128 .f32)
    (hw : ∀ (k : Fin 128) (j : Fin 128), (V c main_v4 : FVec Ideal S128x128 .f32) (ix2 k j) = w (ix2 j k))
    (hb : ∀ j : Fin 128, (V c main_v5 : FVec Ideal S1x128 .f32) (ix2 (0 : Fin 1) j) = b (ix1 j)) :
    (dat0 V c).arrAt 3 cfg0.N = tanhAll (linearRows (V c main_arg0 : FVec Ideal S50000x128 .f32) w b) :=
  (dat0 V c).arrAt_eq_of_cover 3 _ (fun t _ => flushed V c w b hw hb t) covered

end Cert.KernelIdeal.Stage0

end
-- ==== Proof.Hidden0.lean ====
/-
  The hidden array after launch 0 of @main: the input layer of `x`.

  The stretch before the launch transposes `W_in` and recasts `b_in` to one row; the launch reads `x` itself. Its output
  array is read at the boundary after it (`W2`), where the launch's arrays hold what its write-backs leave.
-/
import proofs.«175182_j11940009083287_1_alg».proof.Proof.KernelNet
import proofs.«175182_j11940009083287_1_alg».proof.Proof.Stage0

set_option maxRecDepth 16384

noncomputable section

namespace Cert.KernelIdeal.Whole

open Idealize.ShloMosaic Idealize.ShloMosaic.TcCoe Idealize.ShloMosaic.ValueIdx Idealize.SL.Sem Idealize.ShloMosaic.StableHlo
open Cert.KernelIdeal Cert.KernelIdeal.Gen Cert.LibLinearRows Cert.LibPreparedRows Cert.Net

variable (m : (ℓ : Loc nD τ sig) → Buf (Elt Ideal) ℓ) (ρ : Dev nD → PrngReg)

/-- After launch 0: the input layer of `x`. -/
theorem hidden0 (c : Dev nD) : (W2 m ρ c (Proc.devRef .tc main_v6) : Hidden) = h0 m c := by
  have hx : (W1 m ρ c (Proc.devRef .tc main_arg0) : Hidden) = m ((c : Thread nD τ).loc main_arg0) := by
    show StableHlo.after hostOps0 (W0 m ρ c) (Proc.devRef .tc main_arg0) = _
    after_results <;> rfl
  have hwT : (W1 m ρ c (Proc.devRef .tc main_v4) : FVec Ideal S128x128 .f32)
      = transpose S128x128 [1, 0] (m ((c : Thread nD τ).loc main_arg2)) transposes_S128x128_S128x128_1_0 := by
    show StableHlo.after hostOps0 (W0 m ρ c) (Proc.devRef .tc main_v4) = _
    after_results <;> rfl
  have hb2 : (W1 m ρ c (Proc.devRef .tc main_v5) : FVec Ideal S1x128 .f32)
      = shapeCast S1x128 (m ((c : Thread nD τ).loc main_arg3)) shapeCasts_S128_S1x128 := by
    show StableHlo.after hostOps0 (W0 m ρ c) (Proc.devRef .tc main_v5) = _
    after_results <;> rfl
  refine (W2_arr m ρ c 3).trans ((Stage0.result (V1 m ρ) c (m ((c : Thread nD τ).loc main_arg2))
    (m ((c : Thread nD τ).loc main_arg3)) ?_ ?_).trans ?_)
  · intro k' j
    show (W1 m ρ c (Proc.devRef .tc main_v4) : FVec Ideal S128x128 .f32) (ix2 k' j) = _
    rw [hwT]; exact transposed_apply _ _ k' j
  · intro j
    show (W1 m ρ c (Proc.devRef .tc main_v5) : FVec Ideal S1x128 .f32) (ix2 (0 : Fin 1) j) = _
    rw [hb2]; exact shapeCast_a_1a_apply _ _ 0 j
  · show tanhAll (linearRows (W1 m ρ c (Proc.devRef .tc main_arg0) : Hidden) _ _) = _
    rw [hx]; rfl

end Cert.KernelIdeal.Whole

end
-- ==== Proof.Stage1.lean ====
/-
  A dense layer under the tangent, launched as region 1 of @main: what its output array holds when the region ends.

  The region runs five grid points; point `t` stages rows `10000·t … 10000·t + 9999` of the input array, the whole
  transposed weight matrix and the whole bias row, and writes back the same rows of the output. On a block the body
  computes `tanh (xb · wT + b2)` with the matrix unit's roundings, which are the identity on the extended reals
  (`LibPreparedRows.prepared_form`), and an output row depends on its own input row only (`LibLinearRows.linearRows_block`). So
  the block written at `t` is block `t` of the whole-array function `tanhAll (linearRows x w b)`, where `w` and `b` are
  any weights and bias the staged operands are the transpose and the row of. The five blocks tile the array (row `i`
  lies in block `i / 10000`), so the array ends holding that function.
-/
import proofs.«175182_j11940009083287_1_alg».proof.Proof.Gen.KernelIdeal.Frame
import proofs.«175182_j11940009083287_1_alg».proof.Proof.LibPreparedRows
import Idealize.ShloMosaic.Lib.Pipeline.Value
import Idealize.ShloMosaic.Lib.ValueIdx

set_option maxRecDepth 16384

noncomputable section

namespace Cert.KernelIdeal.Stage1

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.LibLinearRows Cert.LibPreparedRows

variable (V : (c : Dev nD) → (b : Ref sig .tc) → Buf (Elt Ideal) ((c : Thread nD τ).loc b))

theorem origin : (![0, 0] : Fin 2 → Nat) = fun _ => 0 := funext fun a => by fin_cases a <;> rfl

/-- The printed index maps over the grid: the input rows and the output rows move with the point, the weights and
    the bias row stay. -/
theorem block_indices : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- The body's value on a block: with the block `xb` holding rows `e r` of `x`, the transposed weights and the bias row
    as prepared, entry `(r, j)` of the result is entry `(e r, j)` of the whole layer under the tangent. -/
theorem block_value (x : FVec Ideal S50000x128 .f32) (xb : FVec Ideal S10000x128 .f32) (wT : FVec Ideal S128x128 .f32)
    (b2 : FVec Ideal S1x128 .f32) (w : FVec Ideal S128x128 .f32) (b : FVec Ideal S128 .f32)
    (hw : ∀ (k : Fin 128) (j : Fin 128), wT (ix2 k j) = w (ix2 j k)) (hb : ∀ j : Fin 128, b2 (ix2 (0 : Fin 1) j) = b (ix1 j))
    (e : Fin 10000 → Fin 50000) (hx : ∀ (r : Fin 10000) (k : Fin 128), xb (ix2 r k) = x (ix2 (e r) k)) (r : Fin 10000) (j : Fin 128) :
    k1_pay1 (F := Ideal) xb wT b2 (ix2 r j) = tanhAll (linearRows x w b) (ix2 (e r) j) := by
  have h := prepared_form xb w b wT b2 hw hb bitsLt_bf16_f32 broadcasts_S1x128_S10000x128
    dot_S10000x128_S128x128_S10000x128_1_0_0_1_n_n rfl
  unfold k1_pay1
  simp only [shapeCast_self]
  rw [tanh_eq_tanhAll, h, tanhAll_apply, tanhAll_apply]
  exact congrArg Ideal.tanh (linearRows_block x w b xb e hx r j)

/-- What point `t` writes back is block `t` of the layer of the whole input array. -/
theorem flushed (c : Dev nD) (w : FVec Ideal S128x128 .f32) (b : FVec Ideal S128 .f32)
    (hw : ∀ (k : Fin 128) (j : Fin 128), (V c main_v17 : FVec Ideal S128x128 .f32) (ix2 k j) = w (ix2 j k))
    (hb : ∀ j : Fin 128, (V c main_v18 : FVec Ideal S1x128 .f32) (ix2 (0 : Fin 1) j) = b (ix1 j)) (t : Fin cfg1.N) :
    (dat1 V c).flushed 3 t = ((cfg1.win 3).blk t).view.read (Elt Ideal) (tanhAll (linearRows (V c main_v16 : FVec Ideal S50000x128 .f32) w b)) := by
  show (cfg1.win 3).cut (grid1.coords t) ((dat1 V c).after 3 t) = _
  rw [after1_3]
  unfold out1_3
  rw [View.canon_unit_zero origin]
  simp only [View.ld_unit_zero (S := S10000x128) origin, View.ld_unit_zero (S := S128x128) origin, View.ld_unit_zero (S := S1x128) origin]
  funext y
  obtain ⟨r, j, rfl⟩ : ∃ (r : Fin 10000) (j : Fin 128), y = ix2 r j := ⟨y 0, y 1, eq_ix2 y⟩
  obtain ⟨e0, e1, e2, e3, e4, e5, e6, e7⟩ := block_indices t
  have ht : t.val < 5 := lt_of_lt_of_eq t.isLt N_1
  show k1_pay1 (F := Ideal) (iblk1 V c 0 t) (iblk1 V c 1 t) (iblk1 V c 2 t) (ix2 r j)
    = tanhAll (linearRows (V c main_v16 : FVec Ideal S50000x128 .f32) w b) (((cfg1.win 3).blk t).view.emb (ix2 r j))
  refine (block_value (V c main_v16) (iblk1 V c 0 t) (iblk1 V c 1 t) (iblk1 V c 2 t) w b ?_ ?_
    (fun r => ⟨t.val * 10000 + r.val, by have := r.isLt; omega⟩) ?_ r j).trans ?_
  · intro k j
    show (V c main_v17 : FVec Ideal S128x128 .f32) (((cfg1.win 1).blk t).view.emb (ix2 k j)) = _
    rw [← hw k j]
    refine congrArg _ (funext fun a => Fin.ext ?_)
    match a with
    | ⟨0, _⟩ => show win1_1.index t (0 : Fin 2) * 128 + 1 * k.val = k.val; omega
    | ⟨1, _⟩ => show win1_1.index t (1 : Fin 2) * 128 + 1 * j.val = j.val; omega
  · intro j
    show (V c main_v18 : FVec Ideal S1x128 .f32) (((cfg1.win 2).blk t).view.emb (ix2 (0 : Fin 1) j)) = _
    rw [← hb j]
    refine congrArg _ (funext fun a => Fin.ext ?_)
    match a with
    | ⟨0, _⟩ => show win1_2.index t (0 : Fin 2) * 1 + 1 * (0 : Fin 1).val = (0 : Fin 1).val; omega
    | ⟨1, _⟩ => show win1_2.index t (1 : Fin 2) * 128 + 1 * j.val = j.val; omega
  · intro r k
    show (V c main_v16 : FVec Ideal S50000x128 .f32) (((cfg1.win 0).blk t).view.emb (ix2 r k)) = _
    refine congrArg _ (funext fun a => Fin.ext ?_)
    match a with
    | ⟨0, _⟩ => show win1_0.index t (0 : Fin 2) * 10000 + 1 * r.val = t.val * 10000 + r.val; omega
    | ⟨1, _⟩ => show win1_0.index t (1 : Fin 2) * 128 + 1 * k.val = k.val; omega
  · refine congrArg _ (funext fun a => Fin.ext ?_)
    match a with
    | ⟨0, _⟩ => show t.val * 10000 + r.val = win1_3.index t (0 : Fin 2) * 10000 + 1 * r.val; omega
    | ⟨1, _⟩ => show j.val = win1_3.index t (1 : Fin 2) * 128 + 1 * j.val; omega

/-- An index of the output array is in point `t`'s block iff each coordinate is in the block's range on its axis. -/
theorem mem_block (t : Fin cfg1.N) (i : S50000x128.Idx) :
    i ∈ ((cfg1.win 3).blk t).view.set ↔ ∀ a : Fin 2, win1_3.index t a * S10000x128.size a ≤ (i a).val ∧ (i a).val < win1_3.index t a * S10000x128.size a + S10000x128.size a := by
  show i ∈ ((View.whole main_v19).slice (win1_3.rect t)).set ↔ _
  rw [View.set_slice_whole, Rect.mem_set_unit]
  exact Iff.rfl

/-- Every row of the output lies in the block of the point `row / 10000`. -/
theorem covered (i : S50000x128.Idx) : ∃ t : Fin cfg1.N, (cfg1.win 3).flush t = true ∧ i ∈ ((cfg1.win 3).blk t).view.set := by
  have hi0 : (i 0).val < 50000 := (i 0).isLt
  have hi1 : (i 1).val < 128 := (i 1).isLt
  have hN : cfg1.N = 5 := N_1
  let t : Fin cfg1.N := ⟨(i 0).val / 10000, by rw [hN]; omega⟩
  have htv : t.val = (i 0).val / 10000 := rfl
  obtain ⟨-, -, -, -, -, -, e6, e7⟩ := block_indices t
  refine ⟨t, flush1_3 t, ?_⟩
  rw [mem_block]
  intro a
  match a with
  | ⟨0, _⟩ => show win1_3.index t (0 : Fin 2) * 10000 ≤ (i 0).val ∧ (i 0).val < win1_3.index t (0 : Fin 2) * 10000 + 10000; omega
  | ⟨1, _⟩ => show win1_3.index t (1 : Fin 2) * 128 ≤ (i 1).val ∧ (i 1).val < win1_3.index t (1 : Fin 2) * 128 + 128; omega

/-- THE OUTPUT ARRAY when the region ends: the layer of the input array as the region found it, for any weights and
    bias whose transpose and row the staged operands are. -/
theorem result (c : Dev nD) (w : FVec Ideal S128x128 .f32) (b : FVec Ideal S128 .f32)
    (hw : ∀ (k : Fin 128) (j : Fin 128), (V c main_v17 : FVec Ideal S128x128 .f32) (ix2 k j) = w (ix2 j k))
    (hb : ∀ j : Fin 128, (V c main_v18 : FVec Ideal S1x128 .f32) (ix2 (0 : Fin 1) j) = b (ix1 j)) :
    (dat1 V c).arrAt 3 cfg1.N = tanhAll (linearRows (V c main_v16 : FVec Ideal S50000x128 .f32) w b) :=
  (dat1 V c).arrAt_eq_of_cover 3 _ (fun t _ => flushed V c w b hw hb t) covered

end Cert.KernelIdeal.Stage1

end
-- ==== Proof.Hidden1.lean ====
/-
  The hidden array after launch 1 of @main: the layer of the aggregation of the hidden array before it.

  The stretch before the launch computes the aggregation from the previous launch's output and the two index rows,
  transposes this layer's weights and recasts its bias to one row: three facts about the stretch alone, stated over
  whatever contents it starts from. At the boundary the index rows and the two arguments are read through since the
  launch memory (`Kept`), and the previous output is the previous hidden array.
-/
import proofs.«175182_j11940009083287_1_alg».proof.Proof.Hidden0
import proofs.«175182_j11940009083287_1_alg».proof.Proof.Stage1

set_option maxRecDepth 16384

noncomputable section

namespace Cert.KernelIdeal.Whole

open Idealize.ShloMosaic Idealize.ShloMosaic.TcCoe Idealize.ShloMosaic.ValueIdx Idealize.SL.Sem Idealize.ShloMosaic.StableHlo
open Cert.KernelIdeal Cert.KernelIdeal.Gen Cert.LibLinearRows Cert.LibPreparedRows Cert.Net

variable (m : (ℓ : Loc nD τ sig) → Buf (Elt Ideal) ℓ) (ρ : Dev nD → PrngReg)

/-- What the stretch before launch 1 leaves in the launch's input array, over any contents `W` it starts from: the
    aggregation of the previous output. -/
theorem entry1_x (W : Valuation τ sig (Elt Ideal)) : (StableHlo.after hostOps1 W (Proc.devRef .tc main_v16) : Hidden)
    = aggr (W (Proc.devRef .tc main_v1)) (W (Proc.devRef .tc main_v3)) (W (Proc.devRef .tc main_v6)) := by
  after_results <;> rfl

/-- In its weight operand: the layer's weights transposed. -/
theorem entry1_w (W : Valuation τ sig (Elt Ideal)) : (StableHlo.after hostOps1 W (Proc.devRef .tc main_v17) : FVec Ideal S128x128 .f32)
    = transpose S128x128 [1, 0] (W (Proc.devRef .tc main_arg4)) transposes_S128x128_S128x128_1_0 := by
  after_results <;> rfl

/-- In its bias operand: the layer's bias as one row. -/
theorem entry1_b (W : Valuation τ sig (Elt Ideal)) : (StableHlo.after hostOps1 W (Proc.devRef .tc main_v18) : FVec Ideal S1x128 .f32)
    = shapeCast S1x128 (W (Proc.devRef .tc main_arg5)) shapeCasts_S128_S1x128 := by
  after_results <;> rfl

/-- After launch 1: the layer of the aggregation of the hidden array before it. -/
theorem hidden1 (c : Dev nD) : (W4 m ρ c (Proc.devRef .tc main_v19) : Hidden) = h1 m c := by
  have k := kept2 m ρ c
  have hx : (V3 m ρ c main_v16 : Hidden) = agg m c (h0 m c) := by
    refine (entry1_x (W2 m ρ c)).trans ?_
    rw [k.dst, k.src, hidden0 m ρ c]
  have hwT : (V3 m ρ c main_v17 : FVec Ideal S128x128 .f32)
      = transpose S128x128 [1, 0] (m ((c : Thread nD τ).loc main_arg4)) transposes_S128x128_S128x128_1_0 := by
    refine (entry1_w (W2 m ρ c)).trans ?_
    rw [k.a4]
  have hb2 : (V3 m ρ c main_v18 : FVec Ideal S1x128 .f32)
      = shapeCast S1x128 (m ((c : Thread nD τ).loc main_arg5)) shapeCasts_S128_S1x128 := by
    refine (entry1_b (W2 m ρ c)).trans ?_
    rw [k.a5]
  refine (W4_arr m ρ c 3).trans ((Stage1.result (V3 m ρ) c (m ((c : Thread nD τ).loc main_arg4))
    (m ((c : Thread nD τ).loc main_arg5)) ?_ ?_).trans ?_)
  · intro k' j
    rw [hwT]; exact transposed_apply _ _ k' j
  · intro j
    rw [hb2]; exact shapeCast_a_1a_apply _ _ 0 j
  · rw [hx]; rfl

end Cert.KernelIdeal.Whole

end
-- ==== Proof.Stage2.lean ====
/-
  A dense layer under the tangent, launched as region 2 of @main: what its output array holds when the region ends.

  The region runs five grid points; point `t` stages rows `10000·t … 10000·t + 9999` of the input array, the whole
  transposed weight matrix and the whole bias row, and writes back the same rows of the output. On a block the body
  computes `tanh (xb · wT + b2)` with the matrix unit's roundings, which are the identity on the extended reals
  (`LibPreparedRows.prepared_form`), and an output row depends on its own input row only (`LibLinearRows.linearRows_block`). So
  the block written at `t` is block `t` of the whole-array function `tanhAll (linearRows x w b)`, where `w` and `b` are
  any weights and bias the staged operands are the transpose and the row of. The five blocks tile the array (row `i`
  lies in block `i / 10000`), so the array ends holding that function.
-/
import proofs.«175182_j11940009083287_1_alg».proof.Proof.Gen.KernelIdeal.Frame
import proofs.«175182_j11940009083287_1_alg».proof.Proof.LibPreparedRows
import Idealize.ShloMosaic.Lib.Pipeline.Value
import Idealize.ShloMosaic.Lib.ValueIdx

set_option maxRecDepth 16384

noncomputable section

namespace Cert.KernelIdeal.Stage2

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.LibLinearRows Cert.LibPreparedRows

variable (V : (c : Dev nD) → (b : Ref sig .tc) → Buf (Elt Ideal) ((c : Thread nD τ).loc b))

theorem origin : (![0, 0] : Fin 2 → Nat) = fun _ => 0 := funext fun a => by fin_cases a <;> rfl

/-- The printed index maps over the grid: the input rows and the output rows move with the point, the weights and
    the bias row stay. -/
theorem block_indices : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- The body's value on a block: with the block `xb` holding rows `e r` of `x`, the transposed weights and the bias row
    as prepared, entry `(r, j)` of the result is entry `(e r, j)` of the whole layer under the tangent. -/
theorem block_value (x : FVec Ideal S50000x128 .f32) (xb : FVec Ideal S10000x128 .f32) (wT : FVec Ideal S128x128 .f32)
    (b2 : FVec Ideal S1x128 .f32) (w : FVec Ideal S128x128 .f32) (b : FVec Ideal S128 .f32)
    (hw : ∀ (k : Fin 128) (j : Fin 128), wT (ix2 k j) = w (ix2 j k)) (hb : ∀ j : Fin 128, b2 (ix2 (0 : Fin 1) j) = b (ix1 j))
    (e : Fin 10000 → Fin 50000) (hx : ∀ (r : Fin 10000) (k : Fin 128), xb (ix2 r k) = x (ix2 (e r) k)) (r : Fin 10000) (j : Fin 128) :
    k2_pay1 (F := Ideal) xb wT b2 (ix2 r j) = tanhAll (linearRows x w b) (ix2 (e r) j) := by
  have h := prepared_form xb w b wT b2 hw hb bitsLt_bf16_f32 broadcasts_S1x128_S10000x128
    dot_S10000x128_S128x128_S10000x128_1_0_0_1_n_n rfl
  unfold k2_pay1
  simp only [shapeCast_self]
  rw [tanh_eq_tanhAll, h, tanhAll_apply, tanhAll_apply]
  exact congrArg Ideal.tanh (linearRows_block x w b xb e hx r j)

/-- What point `t` writes back is block `t` of the layer of the whole input array. -/
theorem flushed (c : Dev nD) (w : FVec Ideal S128x128 .f32) (b : FVec Ideal S128 .f32)
    (hw : ∀ (k : Fin 128) (j : Fin 128), (V c main_v30 : FVec Ideal S128x128 .f32) (ix2 k j) = w (ix2 j k))
    (hb : ∀ j : Fin 128, (V c main_v31 : FVec Ideal S1x128 .f32) (ix2 (0 : Fin 1) j) = b (ix1 j)) (t : Fin cfg2.N) :
    (dat2 V c).flushed 3 t = ((cfg2.win 3).blk t).view.read (Elt Ideal) (tanhAll (linearRows (V c main_v29 : FVec Ideal S50000x128 .f32) w b)) := by
  show (cfg2.win 3).cut (grid2.coords t) ((dat2 V c).after 3 t) = _
  rw [after2_3]
  unfold out2_3
  rw [View.canon_unit_zero origin]
  simp only [View.ld_unit_zero (S := S10000x128) origin, View.ld_unit_zero (S := S128x128) origin, View.ld_unit_zero (S := S1x128) origin]
  funext y
  obtain ⟨r, j, rfl⟩ : ∃ (r : Fin 10000) (j : Fin 128), y = ix2 r j := ⟨y 0, y 1, eq_ix2 y⟩
  obtain ⟨e0, e1, e2, e3, e4, e5, e6, e7⟩ := block_indices t
  have ht : t.val < 5 := lt_of_lt_of_eq t.isLt N_2
  show k2_pay1 (F := Ideal) (iblk2 V c 0 t) (iblk2 V c 1 t) (iblk2 V c 2 t) (ix2 r j)
    = tanhAll (linearRows (V c main_v29 : FVec Ideal S50000x128 .f32) w b) (((cfg2.win 3).blk t).view.emb (ix2 r j))
  refine (block_value (V c main_v29) (iblk2 V c 0 t) (iblk2 V c 1 t) (iblk2 V c 2 t) w b ?_ ?_
    (fun r => ⟨t.val * 10000 + r.val, by have := r.isLt; omega⟩) ?_ r j).trans ?_
  · intro k j
    show (V c main_v30 : FVec Ideal S128x128 .f32) (((cfg2.win 1).blk t).view.emb (ix2 k j)) = _
    rw [← hw k j]
    refine congrArg _ (funext fun a => Fin.ext ?_)
    match a with
    | ⟨0, _⟩ => show win2_1.index t (0 : Fin 2) * 128 + 1 * k.val = k.val; omega
    | ⟨1, _⟩ => show win2_1.index t (1 : Fin 2) * 128 + 1 * j.val = j.val; omega
  · intro j
    show (V c main_v31 : FVec Ideal S1x128 .f32) (((cfg2.win 2).blk t).view.emb (ix2 (0 : Fin 1) j)) = _
    rw [← hb j]
    refine congrArg _ (funext fun a => Fin.ext ?_)
    match a with
    | ⟨0, _⟩ => show win2_2.index t (0 : Fin 2) * 1 + 1 * (0 : Fin 1).val = (0 : Fin 1).val; omega
    | ⟨1, _⟩ => show win2_2.index t (1 : Fin 2) * 128 + 1 * j.val = j.val; omega
  · intro r k
    show (V c main_v29 : FVec Ideal S50000x128 .f32) (((cfg2.win 0).blk t).view.emb (ix2 r k)) = _
    refine congrArg _ (funext fun a => Fin.ext ?_)
    match a with
    | ⟨0, _⟩ => show win2_0.index t (0 : Fin 2) * 10000 + 1 * r.val = t.val * 10000 + r.val; omega
    | ⟨1, _⟩ => show win2_0.index t (1 : Fin 2) * 128 + 1 * k.val = k.val; omega
  · refine congrArg _ (funext fun a => Fin.ext ?_)
    match a with
    | ⟨0, _⟩ => show t.val * 10000 + r.val = win2_3.index t (0 : Fin 2) * 10000 + 1 * r.val; omega
    | ⟨1, _⟩ => show j.val = win2_3.index t (1 : Fin 2) * 128 + 1 * j.val; omega

/-- An index of the output array is in point `t`'s block iff each coordinate is in the block's range on its axis. -/
theorem mem_block (t : Fin cfg2.N) (i : S50000x128.Idx) :
    i ∈ ((cfg2.win 3).blk t).view.set ↔ ∀ a : Fin 2, win2_3.index t a * S10000x128.size a ≤ (i a).val ∧ (i a).val < win2_3.index t a * S10000x128.size a + S10000x128.size a := by
  show i ∈ ((View.whole main_v32).slice (win2_3.rect t)).set ↔ _
  rw [View.set_slice_whole, Rect.mem_set_unit]
  exact Iff.rfl

/-- Every row of the output lies in the block of the point `row / 10000`. -/
theorem covered (i : S50000x128.Idx) : ∃ t : Fin cfg2.N, (cfg2.win 3).flush t = true ∧ i ∈ ((cfg2.win 3).blk t).view.set := by
  have hi0 : (i 0).val < 50000 := (i 0).isLt
  have hi1 : (i 1).val < 128 := (i 1).isLt
  have hN : cfg2.N = 5 := N_2
  let t : Fin cfg2.N := ⟨(i 0).val / 10000, by rw [hN]; omega⟩
  have htv : t.val = (i 0).val / 10000 := rfl
  obtain ⟨-, -, -, -, -, -, e6, e7⟩ := block_indices t
  refine ⟨t, flush2_3 t, ?_⟩
  rw [mem_block]
  intro a
  match a with
  | ⟨0, _⟩ => show win2_3.index t (0 : Fin 2) * 10000 ≤ (i 0).val ∧ (i 0).val < win2_3.index t (0 : Fin 2) * 10000 + 10000; omega
  | ⟨1, _⟩ => show win2_3.index t (1 : Fin 2) * 128 ≤ (i 1).val ∧ (i 1).val < win2_3.index t (1 : Fin 2) * 128 + 128; omega

/-- THE OUTPUT ARRAY when the region ends: the layer of the input array as the region found it, for any weights and
    bias whose transpose and row the staged operands are. -/
theorem result (c : Dev nD) (w : FVec Ideal S128x128 .f32) (b : FVec Ideal S128 .f32)
    (hw : ∀ (k : Fin 128) (j : Fin 128), (V c main_v30 : FVec Ideal S128x128 .f32) (ix2 k j) = w (ix2 j k))
    (hb : ∀ j : Fin 128, (V c main_v31 : FVec Ideal S1x128 .f32) (ix2 (0 : Fin 1) j) = b (ix1 j)) :
    (dat2 V c).arrAt 3 cfg2.N = tanhAll (linearRows (V c main_v29 : FVec Ideal S50000x128 .f32) w b) :=
  (dat2 V c).arrAt_eq_of_cover 3 _ (fun t _ => flushed V c w b hw hb t) covered

end Cert.KernelIdeal.Stage2

end
-- ==== Proof.Hidden2.lean ====
/-
  The hidden array after launch 2 of @main: the layer of the aggregation of the hidden array before it.

  The stretch before the launch computes the aggregation from the previous launch's output and the two index rows,
  transposes this layer's weights and recasts its bias to one row: three facts about the stretch alone, stated over
  whatever contents it starts from. At the boundary the index rows and the two arguments are read through since the
  launch memory (`Kept`), and the previous output is the previous hidden array.
-/
import proofs.«175182_j11940009083287_1_alg».proof.Proof.Hidden1
import proofs.«175182_j11940009083287_1_alg».proof.Proof.Stage2

set_option maxRecDepth 16384

noncomputable section

namespace Cert.KernelIdeal.Whole

open Idealize.ShloMosaic Idealize.ShloMosaic.TcCoe Idealize.ShloMosaic.ValueIdx Idealize.SL.Sem Idealize.ShloMosaic.StableHlo
open Cert.KernelIdeal Cert.KernelIdeal.Gen Cert.LibLinearRows Cert.LibPreparedRows Cert.Net

variable (m : (ℓ : Loc nD τ sig) → Buf (Elt Ideal) ℓ) (ρ : Dev nD → PrngReg)

/-- What the stretch before launch 2 leaves in the launch's input array, over any contents `W` it starts from: the
    aggregation of the previous output. -/
theorem entry2_x (W : Valuation τ sig (Elt Ideal)) : (StableHlo.after hostOps2 W (Proc.devRef .tc main_v29) : Hidden)
    = aggr (W (Proc.devRef .tc main_v1)) (W (Proc.devRef .tc main_v3)) (W (Proc.devRef .tc main_v19)) := by
  after_results <;> rfl

/-- In its weight operand: the layer's weights transposed. -/
theorem entry2_w (W : Valuation τ sig (Elt Ideal)) : (StableHlo.after hostOps2 W (Proc.devRef .tc main_v30) : FVec Ideal S128x128 .f32)
    = transpose S128x128 [1, 0] (W (Proc.devRef .tc main_arg6)) transposes_S128x128_S128x128_1_0 := by
  after_results <;> rfl

/-- In its bias operand: the layer's bias as one row. -/
theorem entry2_b (W : Valuation τ sig (Elt Ideal)) : (StableHlo.after hostOps2 W (Proc.devRef .tc main_v31) : FVec Ideal S1x128 .f32)
    = shapeCast S1x128 (W (Proc.devRef .tc main_arg7)) shapeCasts_S128_S1x128 := by
  after_results <;> rfl

/-- After launch 2: the layer of the aggregation of the hidden array before it. -/
theorem hidden2 (c : Dev nD) : (W6 m ρ c (Proc.devRef .tc main_v32) : Hidden) = h2 m c := by
  have k := kept4 m ρ c
  have hx : (V5 m ρ c main_v29 : Hidden) = agg m c (h1 m c) := by
    refine (entry2_x (W4 m ρ c)).trans ?_
    rw [k.dst, k.src, hidden1 m ρ c]
  have hwT : (V5 m ρ c main_v30 : FVec Ideal S128x128 .f32)
      = transpose S128x128 [1, 0] (m ((c : Thread nD τ).loc main_arg6)) transposes_S128x128_S128x128_1_0 := by
    refine (entry2_w (W4 m ρ c)).trans ?_
    rw [k.a6]
  have hb2 : (V5 m ρ c main_v31 : FVec Ideal S1x128 .f32)
      = shapeCast S1x128 (m ((c : Thread nD τ).loc main_arg7)) shapeCasts_S128_S1x128 := by
    refine (entry2_b (W4 m ρ c)).trans ?_
    rw [k.a7]
  refine (W6_arr m ρ c 3).trans ((Stage2.result (V5 m ρ) c (m ((c : Thread nD τ).loc main_arg6))
    (m ((c : Thread nD τ).loc main_arg7)) ?_ ?_).trans ?_)
  · intro k' j
    rw [hwT]; exact transposed_apply _ _ k' j
  · intro j
    rw [hb2]; exact shapeCast_a_1a_apply _ _ 0 j
  · rw [hx]; rfl

end Cert.KernelIdeal.Whole

end
-- ==== Proof.Stage3.lean ====
/-
  A dense layer under the tangent, launched as region 3 of @main: what its output array holds when the region ends.

  The region runs five grid points; point `t` stages rows `10000·t … 10000·t + 9999` of the input array, the whole
  transposed weight matrix and the whole bias row, and writes back the same rows of the output. On a block the body
  computes `tanh (xb · wT + b2)` with the matrix unit's roundings, which are the identity on the extended reals
  (`LibPreparedRows.prepared_form`), and an output row depends on its own input row only (`LibLinearRows.linearRows_block`). So
  the block written at `t` is block `t` of the whole-array function `tanhAll (linearRows x w b)`, where `w` and `b` are
  any weights and bias the staged operands are the transpose and the row of. The five blocks tile the array (row `i`
  lies in block `i / 10000`), so the array ends holding that function.
-/
import proofs.«175182_j11940009083287_1_alg».proof.Proof.Gen.KernelIdeal.Frame
import proofs.«175182_j11940009083287_1_alg».proof.Proof.LibPreparedRows
import Idealize.ShloMosaic.Lib.Pipeline.Value
import Idealize.ShloMosaic.Lib.ValueIdx

set_option maxRecDepth 16384

noncomputable section

namespace Cert.KernelIdeal.Stage3

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.LibLinearRows Cert.LibPreparedRows

variable (V : (c : Dev nD) → (b : Ref sig .tc) → Buf (Elt Ideal) ((c : Thread nD τ).loc b))

theorem origin : (![0, 0] : Fin 2 → Nat) = fun _ => 0 := funext fun a => by fin_cases a <;> rfl

/-- The printed index maps over the grid: the input rows and the output rows move with the point, the weights and
    the bias row stay. -/
theorem block_indices : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- The body's value on a block: with the block `xb` holding rows `e r` of `x`, the transposed weights and the bias row
    as prepared, entry `(r, j)` of the result is entry `(e r, j)` of the whole layer under the tangent. -/
theorem block_value (x : FVec Ideal S50000x128 .f32) (xb : FVec Ideal S10000x128 .f32) (wT : FVec Ideal S128x128 .f32)
    (b2 : FVec Ideal S1x128 .f32) (w : FVec Ideal S128x128 .f32) (b : FVec Ideal S128 .f32)
    (hw : ∀ (k : Fin 128) (j : Fin 128), wT (ix2 k j) = w (ix2 j k)) (hb : ∀ j : Fin 128, b2 (ix2 (0 : Fin 1) j) = b (ix1 j))
    (e : Fin 10000 → Fin 50000) (hx : ∀ (r : Fin 10000) (k : Fin 128), xb (ix2 r k) = x (ix2 (e r) k)) (r : Fin 10000) (j : Fin 128) :
    k3_pay1 (F := Ideal) xb wT b2 (ix2 r j) = tanhAll (linearRows x w b) (ix2 (e r) j) := by
  have h := prepared_form xb w b wT b2 hw hb bitsLt_bf16_f32 broadcasts_S1x128_S10000x128
    dot_S10000x128_S128x128_S10000x128_1_0_0_1_n_n rfl
  unfold k3_pay1
  simp only [shapeCast_self]
  rw [tanh_eq_tanhAll, h, tanhAll_apply, tanhAll_apply]
  exact congrArg Ideal.tanh (linearRows_block x w b xb e hx r j)

/-- What point `t` writes back is block `t` of the layer of the whole input array. -/
theorem flushed (c : Dev nD) (w : FVec Ideal S128x128 .f32) (b : FVec Ideal S128 .f32)
    (hw : ∀ (k : Fin 128) (j : Fin 128), (V c main_v43 : FVec Ideal S128x128 .f32) (ix2 k j) = w (ix2 j k))
    (hb : ∀ j : Fin 128, (V c main_v44 : FVec Ideal S1x128 .f32) (ix2 (0 : Fin 1) j) = b (ix1 j)) (t : Fin cfg3.N) :
    (dat3 V c).flushed 3 t = ((cfg3.win 3).blk t).view.read (Elt Ideal) (tanhAll (linearRows (V c main_v42 : FVec Ideal S50000x128 .f32) w b)) := by
  show (cfg3.win 3).cut (grid3.coords t) ((dat3 V c).after 3 t) = _
  rw [after3_3]
  unfold out3_3
  rw [View.canon_unit_zero origin]
  simp only [View.ld_unit_zero (S := S10000x128) origin, View.ld_unit_zero (S := S128x128) origin, View.ld_unit_zero (S := S1x128) origin]
  funext y
  obtain ⟨r, j, rfl⟩ : ∃ (r : Fin 10000) (j : Fin 128), y = ix2 r j := ⟨y 0, y 1, eq_ix2 y⟩
  obtain ⟨e0, e1, e2, e3, e4, e5, e6, e7⟩ := block_indices t
  have ht : t.val < 5 := lt_of_lt_of_eq t.isLt N_3
  show k3_pay1 (F := Ideal) (iblk3 V c 0 t) (iblk3 V c 1 t) (iblk3 V c 2 t) (ix2 r j)
    = tanhAll (linearRows (V c main_v42 : FVec Ideal S50000x128 .f32) w b) (((cfg3.win 3).blk t).view.emb (ix2 r j))
  refine (block_value (V c main_v42) (iblk3 V c 0 t) (iblk3 V c 1 t) (iblk3 V c 2 t) w b ?_ ?_
    (fun r => ⟨t.val * 10000 + r.val, by have := r.isLt; omega⟩) ?_ r j).trans ?_
  · intro k j
    show (V c main_v43 : FVec Ideal S128x128 .f32) (((cfg3.win 1).blk t).view.emb (ix2 k j)) = _
    rw [← hw k j]
    refine congrArg _ (funext fun a => Fin.ext ?_)
    match a with
    | ⟨0, _⟩ => show win3_1.index t (0 : Fin 2) * 128 + 1 * k.val = k.val; omega
    | ⟨1, _⟩ => show win3_1.index t (1 : Fin 2) * 128 + 1 * j.val = j.val; omega
  · intro j
    show (V c main_v44 : FVec Ideal S1x128 .f32) (((cfg3.win 2).blk t).view.emb (ix2 (0 : Fin 1) j)) = _
    rw [← hb j]
    refine congrArg _ (funext fun a => Fin.ext ?_)
    match a with
    | ⟨0, _⟩ => show win3_2.index t (0 : Fin 2) * 1 + 1 * (0 : Fin 1).val = (0 : Fin 1).val; omega
    | ⟨1, _⟩ => show win3_2.index t (1 : Fin 2) * 128 + 1 * j.val = j.val; omega
  · intro r k
    show (V c main_v42 : FVec Ideal S50000x128 .f32) (((cfg3.win 0).blk t).view.emb (ix2 r k)) = _
    refine congrArg _ (funext fun a => Fin.ext ?_)
    match a with
    | ⟨0, _⟩ => show win3_0.index t (0 : Fin 2) * 10000 + 1 * r.val = t.val * 10000 + r.val; omega
    | ⟨1, _⟩ => show win3_0.index t (1 : Fin 2) * 128 + 1 * k.val = k.val; omega
  · refine congrArg _ (funext fun a => Fin.ext ?_)
    match a with
    | ⟨0, _⟩ => show t.val * 10000 + r.val = win3_3.index t (0 : Fin 2) * 10000 + 1 * r.val; omega
    | ⟨1, _⟩ => show j.val = win3_3.index t (1 : Fin 2) * 128 + 1 * j.val; omega

/-- An index of the output array is in point `t`'s block iff each coordinate is in the block's range on its axis. -/
theorem mem_block (t : Fin cfg3.N) (i : S50000x128.Idx) :
    i ∈ ((cfg3.win 3).blk t).view.set ↔ ∀ a : Fin 2, win3_3.index t a * S10000x128.size a ≤ (i a).val ∧ (i a).val < win3_3.index t a * S10000x128.size a + S10000x128.size a := by
  show i ∈ ((View.whole main_v45).slice (win3_3.rect t)).set ↔ _
  rw [View.set_slice_whole, Rect.mem_set_unit]
  exact Iff.rfl

/-- Every row of the output lies in the block of the point `row / 10000`. -/
theorem covered (i : S50000x128.Idx) : ∃ t : Fin cfg3.N, (cfg3.win 3).flush t = true ∧ i ∈ ((cfg3.win 3).blk t).view.set := by
  have hi0 : (i 0).val < 50000 := (i 0).isLt
  have hi1 : (i 1).val < 128 := (i 1).isLt
  have hN : cfg3.N = 5 := N_3
  let t : Fin cfg3.N := ⟨(i 0).val / 10000, by rw [hN]; omega⟩
  have htv : t.val = (i 0).val / 10000 := rfl
  obtain ⟨-, -, -, -, -, -, e6, e7⟩ := block_indices t
  refine ⟨t, flush3_3 t, ?_⟩
  rw [mem_block]
  intro a
  match a with
  | ⟨0, _⟩ => show win3_3.index t (0 : Fin 2) * 10000 ≤ (i 0).val ∧ (i 0).val < win3_3.index t (0 : Fin 2) * 10000 + 10000; omega
  | ⟨1, _⟩ => show win3_3.index t (1 : Fin 2) * 128 ≤ (i 1).val ∧ (i 1).val < win3_3.index t (1 : Fin 2) * 128 + 128; omega

/-- THE OUTPUT ARRAY when the region ends: the layer of the input array as the region found it, for any weights and
    bias whose transpose and row the staged operands are. -/
theorem result (c : Dev nD) (w : FVec Ideal S128x128 .f32) (b : FVec Ideal S128 .f32)
    (hw : ∀ (k : Fin 128) (j : Fin 128), (V c main_v43 : FVec Ideal S128x128 .f32) (ix2 k j) = w (ix2 j k))
    (hb : ∀ j : Fin 128, (V c main_v44 : FVec Ideal S1x128 .f32) (ix2 (0 : Fin 1) j) = b (ix1 j)) :
    (dat3 V c).arrAt 3 cfg3.N = tanhAll (linearRows (V c main_v42 : FVec Ideal S50000x128 .f32) w b) :=
  (dat3 V c).arrAt_eq_of_cover 3 _ (fun t _ => flushed V c w b hw hb t) covered

end Cert.KernelIdeal.Stage3

end
-- ==== Proof.Hidden3.lean ====
/-
  The hidden array after launch 3 of @main: the layer of the aggregation of the hidden array before it.

  The stretch before the launch computes the aggregation from the previous launch's output and the two index rows,
  transposes this layer's weights and recasts its bias to one row: three facts about the stretch alone, stated over
  whatever contents it starts from. At the boundary the index rows and the two arguments are read through since the
  launch memory (`Kept`), and the previous output is the previous hidden array.
-/
import proofs.«175182_j11940009083287_1_alg».proof.Proof.Hidden2
import proofs.«175182_j11940009083287_1_alg».proof.Proof.Stage3

set_option maxRecDepth 16384

noncomputable section

namespace Cert.KernelIdeal.Whole

open Idealize.ShloMosaic Idealize.ShloMosaic.TcCoe Idealize.ShloMosaic.ValueIdx Idealize.SL.Sem Idealize.ShloMosaic.StableHlo
open Cert.KernelIdeal Cert.KernelIdeal.Gen Cert.LibLinearRows Cert.LibPreparedRows Cert.Net

variable (m : (ℓ : Loc nD τ sig) → Buf (Elt Ideal) ℓ) (ρ : Dev nD → PrngReg)

/-- What the stretch before launch 3 leaves in the launch's input array, over any contents `W` it starts from: the
    aggregation of the previous output. -/
theorem entry3_x (W : Valuation τ sig (Elt Ideal)) : (StableHlo.after hostOps3 W (Proc.devRef .tc main_v42) : Hidden)
    = aggr (W (Proc.devRef .tc main_v1)) (W (Proc.devRef .tc main_v3)) (W (Proc.devRef .tc main_v32)) := by
  after_results <;> rfl

/-- In its weight operand: the layer's weights transposed. -/
theorem entry3_w (W : Valuation τ sig (Elt Ideal)) : (StableHlo.after hostOps3 W (Proc.devRef .tc main_v43) : FVec Ideal S128x128 .f32)
    = transpose S128x128 [1, 0] (W (Proc.devRef .tc main_arg8)) transposes_S128x128_S128x128_1_0 := by
  after_results <;> rfl

/-- In its bias operand: the layer's bias as one row. -/
theorem entry3_b (W : Valuation τ sig (Elt Ideal)) : (StableHlo.after hostOps3 W (Proc.devRef .tc main_v44) : FVec Ideal S1x128 .f32)
    = shapeCast S1x128 (W (Proc.devRef .tc main_arg9)) shapeCasts_S128_S1x128 := by
  after_results <;> rfl

/-- After launch 3: the layer of the aggregation of the hidden array before it. -/
theorem hidden3 (c : Dev nD) : (W8 m ρ c (Proc.devRef .tc main_v45) : Hidden) = h3 m c := by
  have k := kept6 m ρ c
  have hx : (V7 m ρ c main_v42 : Hidden) = agg m c (h2 m c) := by
    refine (entry3_x (W6 m ρ c)).trans ?_
    rw [k.dst, k.src, hidden2 m ρ c]
  have hwT : (V7 m ρ c main_v43 : FVec Ideal S128x128 .f32)
      = transpose S128x128 [1, 0] (m ((c : Thread nD τ).loc main_arg8)) transposes_S128x128_S128x128_1_0 := by
    refine (entry3_w (W6 m ρ c)).trans ?_
    rw [k.a8]
  have hb2 : (V7 m ρ c main_v44 : FVec Ideal S1x128 .f32)
      = shapeCast S1x128 (m ((c : Thread nD τ).loc main_arg9)) shapeCasts_S128_S1x128 := by
    refine (entry3_b (W6 m ρ c)).trans ?_
    rw [k.a9]
  refine (W8_arr m ρ c 3).trans ((Stage3.result (V7 m ρ) c (m ((c : Thread nD τ).loc main_arg8))
    (m ((c : Thread nD τ).loc main_arg9)) ?_ ?_).trans ?_)
  · intro k' j
    rw [hwT]; exact transposed_apply _ _ k' j
  · intro j
    rw [hb2]; exact shapeCast_a_1a_apply _ _ 0 j
  · rw [hx]; rfl

end Cert.KernelIdeal.Whole

end
-- ==== Proof.Stage4.lean ====
/-
  The output projection's launch (region 4 of @main): what its output array holds when the region ends.

  As in the hidden layers' launches the region runs five grid points, point `t` staging rows `10000·t … 10000·t + 9999`
  of the input array, the whole transposed weight matrix (128 × 64) and the whole bias row (1 × 64), and writing back the
  same rows of the 64-column output. The body is the affine map alone, `xb · wT + b2`, with no tangent after it. The
  block written at `t` is block `t` of `linearRows x w b` for any 64 × 128 weights and 64-entry bias the staged operands are
  the transpose and the row of, and the five blocks tile the 50000 × 64 array.
-/
import proofs.«175182_j11940009083287_1_alg».proof.Proof.Gen.KernelIdeal.Frame
import proofs.«175182_j11940009083287_1_alg».proof.Proof.LibPreparedRows
import Idealize.ShloMosaic.Lib.Pipeline.Value
import Idealize.ShloMosaic.Lib.ValueIdx

set_option maxRecDepth 16384

noncomputable section

namespace Cert.KernelIdeal.Stage4

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.LibLinearRows Cert.LibPreparedRows

variable (V : (c : Dev nD) → (b : Ref sig .tc) → Buf (Elt Ideal) ((c : Thread nD τ).loc b))

theorem origin : (![0, 0] : Fin 2 → Nat) = fun _ => 0 := funext fun a => by fin_cases a <;> rfl

/-- The printed index maps over the grid: the input rows and the output rows move with the point, the weights and
    the bias row stay. -/
theorem block_indices : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0 :=
  (by decide +kernel : ∀ t : Fin grid4.N, _)

/-- The body's value on a block: with the block `xb` holding rows `e r` of `x`, entry `(r, j)` of the result is entry
    `(e r, j)` of the whole affine map. -/
theorem block_value (x : FVec Ideal S50000x128 .f32) (xb : FVec Ideal S10000x128 .f32) (wT : FVec Ideal S128x64 .f32)
    (b2 : FVec Ideal S1x64 .f32) (w : FVec Ideal S64x128 .f32) (b : FVec Ideal S64 .f32)
    (hw : ∀ (k : Fin 128) (j : Fin 64), wT (ix2 k j) = w (ix2 j k)) (hb : ∀ j : Fin 64, b2 (ix2 (0 : Fin 1) j) = b (ix1 j))
    (e : Fin 10000 → Fin 50000) (hx : ∀ (r : Fin 10000) (k : Fin 128), xb (ix2 r k) = x (ix2 (e r) k)) (r : Fin 10000) (j : Fin 64) :
    k4_pay1 (F := Ideal) xb wT b2 (ix2 r j) = linearRows x w b (ix2 (e r) j) := by
  have h := prepared_form xb w b wT b2 hw hb bitsLt_bf16_f32 broadcasts_S1x64_S10000x64
    dot_S10000x128_S128x64_S10000x64_1_0_0_1_n_n rfl
  unfold k4_pay1
  simp only [shapeCast_self]
  rw [h]
  exact linearRows_block x w b xb e hx r j

/-- What point `t` writes back is block `t` of the affine map of the whole input array. -/
theorem flushed (c : Dev nD) (w : FVec Ideal S64x128 .f32) (b : FVec Ideal S64 .f32)
    (hw : ∀ (k : Fin 128) (j : Fin 64), (V c main_v46 : FVec Ideal S128x64 .f32) (ix2 k j) = w (ix2 j k))
    (hb : ∀ j : Fin 64, (V c main_v47 : FVec Ideal S1x64 .f32) (ix2 (0 : Fin 1) j) = b (ix1 j)) (t : Fin cfg4.N) :
    (dat4 V c).flushed 3 t = ((cfg4.win 3).blk t).view.read (Elt Ideal) (linearRows (V c main_v45 : FVec Ideal S50000x128 .f32) w b) := by
  show (cfg4.win 3).cut (grid4.coords t) ((dat4 V c).after 3 t) = _
  rw [after4_3]
  unfold out4_3
  rw [View.canon_unit_zero origin]
  simp only [View.ld_unit_zero (S := S10000x128) origin, View.ld_unit_zero (S := S128x64) origin, View.ld_unit_zero (S := S1x64) origin]
  funext y
  obtain ⟨r, j, rfl⟩ : ∃ (r : Fin 10000) (j : Fin 64), y = ix2 r j := ⟨y 0, y 1, eq_ix2 y⟩
  obtain ⟨e0, e1, e2, e3, e4, e5, e6, e7⟩ := block_indices t
  have ht : t.val < 5 := lt_of_lt_of_eq t.isLt N_4
  show k4_pay1 (F := Ideal) (iblk4 V c 0 t) (iblk4 V c 1 t) (iblk4 V c 2 t) (ix2 r j)
    = linearRows (V c main_v45 : FVec Ideal S50000x128 .f32) w b (((cfg4.win 3).blk t).view.emb (ix2 r j))
  refine (block_value (V c main_v45) (iblk4 V c 0 t) (iblk4 V c 1 t) (iblk4 V c 2 t) w b ?_ ?_
    (fun r => ⟨t.val * 10000 + r.val, by have := r.isLt; omega⟩) ?_ r j).trans ?_
  · intro k j
    show (V c main_v46 : FVec Ideal S128x64 .f32) (((cfg4.win 1).blk t).view.emb (ix2 k j)) = _
    rw [← hw k j]
    refine congrArg _ (funext fun a => Fin.ext ?_)
    match a with
    | ⟨0, _⟩ => show win4_1.index t (0 : Fin 2) * 128 + 1 * k.val = k.val; omega
    | ⟨1, _⟩ => show win4_1.index t (1 : Fin 2) * 64 + 1 * j.val = j.val; omega
  · intro j
    show (V c main_v47 : FVec Ideal S1x64 .f32) (((cfg4.win 2).blk t).view.emb (ix2 (0 : Fin 1) j)) = _
    rw [← hb j]
    refine congrArg _ (funext fun a => Fin.ext ?_)
    match a with
    | ⟨0, _⟩ => show win4_2.index t (0 : Fin 2) * 1 + 1 * (0 : Fin 1).val = (0 : Fin 1).val; omega
    | ⟨1, _⟩ => show win4_2.index t (1 : Fin 2) * 64 + 1 * j.val = j.val; omega
  · intro r k
    show (V c main_v45 : FVec Ideal S50000x128 .f32) (((cfg4.win 0).blk t).view.emb (ix2 r k)) = _
    refine congrArg _ (funext fun a => Fin.ext ?_)
    match a with
    | ⟨0, _⟩ => show win4_0.index t (0 : Fin 2) * 10000 + 1 * r.val = t.val * 10000 + r.val; omega
    | ⟨1, _⟩ => show win4_0.index t (1 : Fin 2) * 128 + 1 * k.val = k.val; omega
  · refine congrArg _ (funext fun a => Fin.ext ?_)
    match a with
    | ⟨0, _⟩ => show t.val * 10000 + r.val = win4_3.index t (0 : Fin 2) * 10000 + 1 * r.val; omega
    | ⟨1, _⟩ => show j.val = win4_3.index t (1 : Fin 2) * 64 + 1 * j.val; omega

/-- An index of the output array is in point `t`'s block iff each coordinate is in the block's range on its axis. -/
theorem mem_block (t : Fin cfg4.N) (i : S50000x64.Idx) :
    i ∈ ((cfg4.win 3).blk t).view.set ↔ ∀ a : Fin 2, win4_3.index t a * S10000x64.size a ≤ (i a).val ∧ (i a).val < win4_3.index t a * S10000x64.size a + S10000x64.size a := by
  show i ∈ ((View.whole main_v48).slice (win4_3.rect t)).set ↔ _
  rw [View.set_slice_whole, Rect.mem_set_unit]
  exact Iff.rfl

/-- Every row of the output lies in the block of the point `row / 10000`. -/
theorem covered (i : S50000x64.Idx) : ∃ t : Fin cfg4.N, (cfg4.win 3).flush t = true ∧ i ∈ ((cfg4.win 3).blk t).view.set := by
  have hi0 : (i 0).val < 50000 := (i 0).isLt
  have hi1 : (i 1).val < 64 := (i 1).isLt
  have hN : cfg4.N = 5 := N_4
  let t : Fin cfg4.N := ⟨(i 0).val / 10000, by rw [hN]; omega⟩
  have htv : t.val = (i 0).val / 10000 := rfl
  obtain ⟨-, -, -, -, -, -, e6, e7⟩ := block_indices t
  refine ⟨t, flush4_3 t, ?_⟩
  rw [mem_block]
  intro a
  match a with
  | ⟨0, _⟩ => show win4_3.index t (0 : Fin 2) * 10000 ≤ (i 0).val ∧ (i 0).val < win4_3.index t (0 : Fin 2) * 10000 + 10000; omega
  | ⟨1, _⟩ => show win4_3.index t (1 : Fin 2) * 64 ≤ (i 1).val ∧ (i 1).val < win4_3.index t (1 : Fin 2) * 64 + 64; omega

/-- THE OUTPUT ARRAY when the region ends: the affine map of the input array as the region found it, for any weights
    and bias whose transpose and row the staged operands are. -/
theorem result (c : Dev nD) (w : FVec Ideal S64x128 .f32) (b : FVec Ideal S64 .f32)
    (hw : ∀ (k : Fin 128) (j : Fin 64), (V c main_v46 : FVec Ideal S128x64 .f32) (ix2 k j) = w (ix2 j k))
    (hb : ∀ j : Fin 64, (V c main_v47 : FVec Ideal S1x64 .f32) (ix2 (0 : Fin 1) j) = b (ix1 j)) :
    (dat4 V c).arrAt 3 cfg4.N = linearRows (V c main_v45 : FVec Ideal S50000x128 .f32) w b :=
  (dat4 V c).arrAt_eq_of_cover 3 _ (fun t _ => flushed V c w b hw hb t) covered

end Cert.KernelIdeal.Stage4

end
-- ==== Proof.KernelResult.lean ====
/-
  The result array when @main returns: the output projection of the last hidden array, and so the whole network.

  The last stretch transposes `W_out` and recasts `b_out` to one row and leaves the last hidden array where launch 3 put
  it: three facts about the stretch alone, stated over whatever contents it starts from. Launch 4 writes the result,
  which is read at the last boundary (`W10`).
-/
import proofs.«175182_j11940009083287_1_alg».proof.Proof.Hidden3
import proofs.«175182_j11940009083287_1_alg».proof.Proof.Stage4

set_option maxRecDepth 16384

noncomputable section

namespace Cert.KernelIdeal.Whole

open Idealize.ShloMosaic Idealize.ShloMosaic.TcCoe Idealize.ShloMosaic.ValueIdx Idealize.SL.Sem Idealize.ShloMosaic.StableHlo
open Cert.KernelIdeal Cert.KernelIdeal.Gen Cert.LibLinearRows Cert.LibPreparedRows Cert.Net

variable (m : (ℓ : Loc nD τ sig) → Buf (Elt Ideal) ℓ) (ρ : Dev nD → PrngReg)

/-- The last stretch does not write launch 4's input array. -/
theorem entry4_x (W : Valuation τ sig (Elt Ideal)) : (StableHlo.after hostOps4 W (Proc.devRef .tc main_v45) : Hidden)
    = W (Proc.devRef .tc main_v45) := by
  after_results <;> rfl

/-- It leaves in the weight operand the output weights transposed. -/
theorem entry4_w (W : Valuation τ sig (Elt Ideal)) : (StableHlo.after hostOps4 W (Proc.devRef .tc main_v46) : FVec Ideal S128x64 .f32)
    = transpose S128x64 [1, 0] (W (Proc.devRef .tc main_arg10)) transposes_S64x128_S128x64_1_0 := by
  after_results <;> rfl

/-- And in the bias operand the output bias as one row. -/
theorem entry4_b (W : Valuation τ sig (Elt Ideal)) : (StableHlo.after hostOps4 W (Proc.devRef .tc main_v47) : FVec Ideal S1x64 .f32)
    = shapeCast S1x64 (W (Proc.devRef .tc main_arg11)) shapeCasts_S64_S1x64 := by
  after_results <;> rfl

/-- THE RESULT ARRAY when @main returns: the output projection of the last hidden array. -/
theorem result (c : Dev nD) : (W10 m ρ c (Proc.devRef .tc main_v48) : FVec Ideal S50000x64 .f32)
    = linearRows (h3 m c) (m ((c : Thread nD τ).loc main_arg10)) (m ((c : Thread nD τ).loc main_arg11)) := by
  have k := kept8 m ρ c
  have hx : (V9 m ρ c main_v45 : Hidden) = h3 m c := (entry4_x (W8 m ρ c)).trans (hidden3 m ρ c)
  have hwT : (V9 m ρ c main_v46 : FVec Ideal S128x64 .f32)
      = transpose S128x64 [1, 0] (m ((c : Thread nD τ).loc main_arg10)) transposes_S64x128_S128x64_1_0 := by
    refine (entry4_w (W8 m ρ c)).trans ?_
    rw [k.a10]
  have hb2 : (V9 m ρ c main_v47 : FVec Ideal S1x64 .f32)
      = shapeCast S1x64 (m ((c : Thread nD τ).loc main_arg11)) shapeCasts_S64_S1x64 := by
    refine (entry4_b (W8 m ρ c)).trans ?_
    rw [k.a11]
  refine (W10_arr m ρ c 3).trans ((Stage4.result (V9 m ρ) c (m ((c : Thread nD τ).loc main_arg10))
    (m ((c : Thread nD τ).loc main_arg11)) ?_ ?_).trans ?_)
  · intro k' j
    rw [hwT]; exact transposed_apply _ _ k' j
  · intro j
    rw [hb2]; exact shapeCast_a_1a_apply _ _ 0 j
  · rw [hx]

/-- The same, as the network over the program's aggregation: `net` unfolds to this nest of layers. -/
theorem result_net (c : Dev nD) : (W10 m ρ c (Proc.devRef .tc main_v48) : FVec Ideal S50000x64 .f32)
    = net (agg m c) (m ((c : Thread nD τ).loc main_arg0))
        (m ((c : Thread nD τ).loc main_arg2)) (m ((c : Thread nD τ).loc main_arg3))
        (m ((c : Thread nD τ).loc main_arg4)) (m ((c : Thread nD τ).loc main_arg5))
        (m ((c : Thread nD τ).loc main_arg6)) (m ((c : Thread nD τ).loc main_arg7))
        (m ((c : Thread nD τ).loc main_arg8)) (m ((c : Thread nD τ).loc main_arg9))
        (m ((c : Thread nD τ).loc main_arg10)) (m ((c : Thread nD τ).loc main_arg11)) :=
  result m ρ c

end Cert.KernelIdeal.Whole

end
-- ==== Proof.ReferenceNet.lean ====
/-
  What the idealized reference's result holds: the network of `Net.net`, over the aggregation its own host operations
  compute.

  The reference's run states its result as one composed term of the arguments. Each of its five affine maps is spelt
  `x · (transpose w) + (b as a row, repeated down the rows)`, which is `linearRows x w b` entry by entry
  (`LibLinearRows.host_form`: the plain product is the sum over the contracted axis, the transposed weights read at
  `(k, j)` are the weights at `(j, k)`); the host's tangent is the tangent on every entry. What stands between two layers —
  the two index rows sliced from the edge list, the gather of source rows and the scatter-add into destination rows —
  is left as it is printed and named `aggr`.
-/
import proofs.«175182_j11940009083287_1_alg».proof.Proof.Gen.ReferenceIdeal.Run
import proofs.«175182_j11940009083287_1_alg».proof.Proof.Net

set_option maxRecDepth 16384

noncomputable section

namespace Cert.ReferenceIdeal.Whole

open Idealize.ShloMosaic Idealize.ShloMosaic.TcCoe Idealize.SL.Sem
open Cert.ReferenceIdeal Cert.ReferenceIdeal.Gen Cert.ReferenceIdeal.Value Cert.LibLinearRows Cert.LibPreparedRows Cert.Net

/-- The edge list, and one row of it as a vector of node numbers. -/
abbrev Edges := (⟨S2x640000, .i32⟩ : BufTy).Contents (Elt Ideal)
abbrev NodeIds := (⟨S640000, .i32⟩ : BufTy).Contents (Elt Ideal)

/-- The destination node of every edge: row 0 of the edge list. -/
def dstRows (ei : Edges) : NodeIds :=
  shapeCast S640000 (extractStridedSlice S1x640000 ![0, 0] ei slices_S2x640000_S1x640000_0_0) shapeCasts_S1x640000_S640000

/-- The source node of every edge: row 1 of the edge list. -/
def srcRows (ei : Edges) : NodeIds :=
  shapeCast S640000 (extractStridedSlice S1x640000 ![1, 0] ei slices_S2x640000_S1x640000_1_0) shapeCasts_S1x640000_S640000

/-- The aggregation: gather the hidden rows of the edges' sources (a negative node number counted from the end), and
    add each gathered row into the row of its edge's destination, starting from zero. -/
def aggr (dst src : NodeIds) (h : FVec Ideal S50000x128 .f32) : FVec Ideal S50000x128 .f32 :=
  Host.scatterAdd scatter_S50000x128_S640000x1_S640000x128_1_0_0_1
    (broadcastInDim S50000x128 ![] bcast_S_S50000x128 (constant (F := Ideal) S_ .f32 0x00000000#32))
    (broadcastInDim S640000x1 ![0] bcast_S640000_S640000x1_0 dst)
    (Host.gather gather_S50000x128_S640000x1_S640000x128_1_0_n_n_0_1_1128 h
      (broadcastInDim S640000x1 ![0] bcast_S640000_S640000x1_0
        (select (cmpi .slt src (broadcastInDim S640000 ![] bcast_S_S640000 (constantI S_ 32 0#32)))
          (addi src (broadcastInDim S640000 ![] bcast_S_S640000 (constantI S_ 32 50000#32))) src)))

variable (m : (ℓ : Loc nD τ sig) → Buf (Elt Ideal) ℓ)

/-- The reference's result is the network over its own aggregation. -/
theorem result_eq (c : Dev nD) : res_main_v62 (F := Ideal) m c
    = net (aggr (dstRows (m ((c.tc : Thread nD τ).loc main_arg1))) (srcRows (m ((c.tc : Thread nD τ).loc main_arg1))))
        (m ((c.tc : Thread nD τ).loc main_arg0))
        (m ((c.tc : Thread nD τ).loc main_arg2)) (m ((c.tc : Thread nD τ).loc main_arg3))
        (m ((c.tc : Thread nD τ).loc main_arg4)) (m ((c.tc : Thread nD τ).loc main_arg5))
        (m ((c.tc : Thread nD τ).loc main_arg6)) (m ((c.tc : Thread nD τ).loc main_arg7))
        (m ((c.tc : Thread nD τ).loc main_arg8)) (m ((c.tc : Thread nD τ).loc main_arg9))
        (m ((c.tc : Thread nD τ).loc main_arg10)) (m ((c.tc : Thread nD τ).loc main_arg11)) := by
  have hidden := fun (x : FVec Ideal S50000x128 .f32) (w : FVec Ideal S128x128 .f32) (b : FVec Ideal S128 .f32) =>
    host_form (N := 50000) (K := 128) (M := 128) x w b transposes_S128x128_S128x128_1_0 bcast_S128_S1x128_1
      bcast_S1x128_S50000x128_0_1 dot_S50000x128_S128x128_S50000x128_1_0_0_1_n_n rfl
  have output := fun (x : FVec Ideal S50000x128 .f32) (w : FVec Ideal S64x128 .f32) (b : FVec Ideal S64 .f32) =>
    host_form (N := 50000) (K := 128) (M := 64) x w b transposes_S64x128_S128x64_1_0 bcast_S64_S1x64_1
      bcast_S1x64_S50000x64_0_1 dot_S50000x128_S128x64_S50000x64_1_0_0_1_n_n rfl
  unfold res_main_v62
  simp only [hidden, output, hostTanh_eq_tanhAll]
  rfl

end Cert.ReferenceIdeal.Whole

end
-- ==== Proof.lean ====
/-
  The certificate of a three-round message-passing network: five dense layers, each one launch of the same kernel over
  blocks of 10000 rows, with a gather of source rows and a scatter-add into destination rows between them, against the
  same network written with whole-array products.

  At the exact instance both programs compute, from the same inputs, the function `Net.net` over the same aggregation:
  the reference because each of its affine maps is `linearRows` entry by entry (`ReferenceNet`), the kernel program
  because every launch's output array ends as the layer of its input array and the host operations between the launches
  are the reference's own (`KernelNet`, `Hidden0` … `Hidden3`, `KernelResult`). The two aggregations are one function, spelt with each program's own dimension
  records of equal fields. No property of the inputs is used: the sums and products on the two sides are the same
  sums and products, term by term, so the statement's finiteness precondition is never opened.

  The frames are the generated ones; the reference's is its generated run with the result dropped. The idealization
  rewrote no operation, so `preserves` has nothing to state.
-/
import proofs.«175182_j11940009083287_1_alg».proof.Defs
import proofs.«175182_j11940009083287_1_alg».proof.Proof.Gen.Kernel
import proofs.«175182_j11940009083287_1_alg».proof.Proof.Gen.Kernel.Frame
import proofs.«175182_j11940009083287_1_alg».proof.Proof.Gen.KernelIdeal
import proofs.«175182_j11940009083287_1_alg».proof.Proof.Gen.KernelIdeal.Frame
import proofs.«175182_j11940009083287_1_alg».proof.Proof.Gen.ReferenceIdeal
import proofs.«175182_j11940009083287_1_alg».proof.Proof.Gen.ReferenceIdeal.Run
import proofs.«175182_j11940009083287_1_alg».proof.Proof.Gen.Pre_finite_inputs
import proofs.«175182_j11940009083287_1_alg».proof.Proof.KernelRun
import proofs.«175182_j11940009083287_1_alg».proof.Proof.KernelResult
import proofs.«175182_j11940009083287_1_alg».proof.Proof.ReferenceNet
import Idealize.ShloMosaic.Adequacy
import Idealize.ShloMosaic.Init

set_option maxRecDepth 16384

noncomputable section

namespace Cert.Proof

open Idealize.ShloMosaic Idealize.SL.Sem

/-- The two programs' aggregations are one function: the same operations over dimension records with equal fields. -/
theorem aggregation_eq (ei : Cert.KernelIdeal.Whole.Edges) :
    Cert.ReferenceIdeal.Whole.aggr (Cert.ReferenceIdeal.Whole.dstRows ei) (Cert.ReferenceIdeal.Whole.srcRows ei)
      = Cert.KernelIdeal.Whole.aggr (Cert.KernelIdeal.Whole.dstRows ei) (Cert.KernelIdeal.Whole.srcRows ei) := rfl

theorem frame_kernel [Cert.Kernel.Facts] [Cert.Pre_finite_inputs.Facts] : Cert.frame_Kernel :=
  fun m ρ _ => Cert.Kernel.Gen.frame m ρ

theorem frame_kernelIdeal [Cert.KernelIdeal.Facts] [Cert.Pre_finite_inputs.Facts] : Cert.frame_KernelIdeal :=
  fun m ρ _ => Cert.KernelIdeal.Gen.frame m ρ

theorem frame_referenceIdeal [Cert.ReferenceIdeal.Facts] [Cert.Pre_finite_inputs.Facts] : Cert.frame_ReferenceIdeal :=
  fun m ρ _ => (θ_run Cert.ReferenceIdeal.defs _ _).mono (fun _ h c => (h c).2) (Cert.ReferenceIdeal.Value.run (F := Ideal) m ρ)

/-- Both runs end with the result at `Net.net` of the (agreeing) arguments over the one aggregation. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨fun c => Cert.Net.net (Cert.KernelIdeal.Whole.agg m c) (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))
      (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)), ?_, ?_⟩
  · exact (θ_run Cert.KernelIdeal.defs _ _).mono
      (fun r h c => ⟨(h c).1.trans (Cert.KernelIdeal.Whole.result_net m ρ c), (h c).2⟩)
      (Cert.KernelIdeal.Named.run_named (F := Ideal) m ρ)
  · refine (θ_run Cert.ReferenceIdeal.defs _ _).mono (fun r h c => ⟨?_, (h c).2⟩)
      (Cert.ReferenceIdeal.Value.run (F := Ideal) m' ρ')
    obtain ⟨e0, e1, e2, e3, e4, e5, e6, e7, e8, e9, e10, e11⟩ := hagree c
    rw [(h c).1, Cert.ReferenceIdeal.Whole.result_eq m' c, e0, e1, e2, e3, e4, e5, e6, e7, e8, e9, e10, e11, aggregation_eq]

end Cert.Proof

theorem Cert.Proof.claim : Cert.Claim :=
  ⟨Cert.Kernel.Gen.facts, Cert.KernelIdeal.Gen.facts, Cert.ReferenceIdeal.Gen.facts, Cert.Pre_finite_inputs.Gen.facts,
    Cert.Proof.frame_kernel, Cert.Proof.frame_kernelIdeal, Cert.Proof.frame_referenceIdeal, trivial, Cert.Proof.algebraic⟩

end
